-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000 : Shape := ⟨1, ![1000000]⟩
abbrev S64x3 : Shape := ⟨2, ![64, 3]⟩
abbrev S1x3 : Shape := ⟨2, ![1, 3]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x3 : S_.BroadcastsInDim S64x3 (![] : Fin 0 → Fin S64x3.rank)
  reducesTo_S64x3_S_d0_1 : S64x3.ReducesTo [0, 1] S_
  bcast_S_S1x3 : S_.BroadcastsInDim S1x3 (![] : Fin 0 → Fin S1x3.rank)
  reducesTo_S1x3_S_d0_1 : S1x3.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S1000000 32) (main_arg2 : IVec S1000000 32) (main_arg3 : FVec F S64x3 .f32) (main_arg4 : FVec F S1x3 .f32) (main_arg5 : FVec F S64x64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x3 .f32 := Host.absf main_arg3
  let main_cst_0 : FVec F S_ .f32 := constant S_ .f32 0x7F800000#32
  let main_v5 : FVec F S64x3 .f32 := broadcastInDim S64x3 ![] bcast_S_S64x3 main_cst_0
  let main_v6 : IVec S64x3 1 := cmpf .olt main_v4 main_v5
  let main_c_1 : IVec S_ 1 := constantI S_ 1 1#1
  let main_v7 : IVec S_ 1 := (fun x v => Host.reduce IntOp.andi x v reducesTo_S64x3_S_d0_1 h_S_) main_v6 main_c_1
  let main_v8 : IVec S_ 1 := andi main_v3 main_v7
  let main_v9 : FVec F S1x3 .f32 := Host.absf main_arg4
  let main_cst_2 : FVec F S_ .f32 := constant S_ .f32 0x7F800000#32
  let main_v10 : FVec F S1x3 .f32 := broadcastInDim S1x3 ![] bcast_S_S1x3 main_cst_2
  let main_v11 : IVec S1x3 1 := cmpf .olt main_v9 main_v10
  let main_c_3 : IVec S_ 1 := constantI S_ 1 1#1
  let main_v12 : IVec S_ 1 := (fun x v => Host.reduce IntOp.andi x v reducesTo_S1x3_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S100000x64 : Shape := ⟨2, ![100000, 64]⟩
abbrev S1000000 : Shape := ⟨1, ![1000000]⟩
abbrev S64x3 : Shape := ⟨2, ![64, 3]⟩
abbrev S1x3 : Shape := ⟨2, ![1, 3]⟩
abbrev S64x64 : Shape := ⟨2, ![64, 64]⟩
abbrev S64 : Shape := ⟨1, ![64]⟩
abbrev S_ : Shape := ⟨0, ![]⟩
abbrev S1000000x1 : Shape := ⟨2, ![1000000, 1]⟩
abbrev S1000000x64 : Shape := ⟨2, ![1000000, 64]⟩
abbrev S1000000x65 : Shape := ⟨2, ![1000000, 65]⟩
abbrev S100000x65 : Shape := ⟨2, ![100000, 65]⟩
abbrev S100000x1 : Shape := ⟨2, ![100000, 1]⟩
abbrev S1x64 : Shape := ⟨2, ![1, 64]⟩
abbrev S20000x64 : Shape := ⟨2, ![20000, 64]⟩
abbrev S20000x3 : Shape := ⟨2, ![20000, 3]⟩
abbrev S20000 : Shape := ⟨1, ![20000]⟩
abbrev S20000x1 : Shape := ⟨2, ![20000, 1]⟩

abbrev nBuf : Space → Nat
  | .hbm => 41
  | .vmem => 8
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S64x3, .f32⟩
  | .hbm, ⟨4, _⟩ => ⟨S1x3, .f32⟩
  | .hbm, ⟨5, _⟩ => ⟨S64x64, .f32⟩
  | .hbm, ⟨6, _⟩ => ⟨S64, .f32⟩
  | .hbm, ⟨7, _⟩ => ⟨S_, .i32⟩
  | .hbm, ⟨8, _⟩ => ⟨S1000000, .i32⟩
  | .hbm, ⟨9, _⟩ => ⟨S1000000, .i1⟩
  | .hbm, ⟨10, _⟩ => ⟨S_, .i32⟩
  | .hbm, ⟨11, _⟩ => ⟨S1000000, .i32⟩
  | .hbm, ⟨12, _⟩ => ⟨S1000000, .i32⟩
  | .hbm, ⟨13, _⟩ => ⟨S1000000, .i32⟩
  | .hbm, ⟨14, _⟩ => ⟨S1000000x1, .i32⟩
  | .hbm, ⟨15, _⟩ => ⟨S1000000x64, .f32⟩
  | .hbm, ⟨16, _⟩ => ⟨S_, .f32⟩
  | .hbm, ⟨17, _⟩ => ⟨S1000000x1, .f32⟩
  | .hbm, ⟨18, _⟩ => ⟨S1000000x65, .f32⟩
  | .hbm, ⟨19, _⟩ => ⟨S_, .f32⟩
  | .hbm, ⟨20, _⟩ => ⟨S100000x65, .f32⟩
  | .hbm, ⟨21, _⟩ => ⟨S1000000x1, .i32⟩
  | .hbm, ⟨22, _⟩ => ⟨S100000x65, .f32⟩
  | .hbm, ⟨23, _⟩ => ⟨S100000x64, .f32⟩
  | .hbm, ⟨24, _⟩ => ⟨S100000x1, .f32⟩
  | .hbm, ⟨25, _⟩ => ⟨S_, .f32⟩
  | .hbm, ⟨26, _⟩ => ⟨S100000x1, .f32⟩
  | .hbm, ⟨27, _⟩ => ⟨S100000x1, .i1⟩
  | .hbm, ⟨28, _⟩ => ⟨S_, .f32⟩
  | .hbm, ⟨29, _⟩ => ⟨S100000x1, .f32⟩
  | .hbm, ⟨30, _⟩ => ⟨S100000x1, .f32⟩
  | .hbm, ⟨31, _⟩ => ⟨S100000x64, .f32⟩
  | .hbm, ⟨32, _⟩ => ⟨S100000x64, .f32⟩
  | .hbm, ⟨33, _⟩ => ⟨S_, .f32⟩
  | .hbm, ⟨34, _⟩ => ⟨S_, .f32⟩
  | .hbm, ⟨35, _⟩ => ⟨S100000x64, .i1⟩
  | .hbm, ⟨36, _⟩ => ⟨S100000x64, .f32⟩
  | .hbm, ⟨37, _⟩ => ⟨S100000x64, .f32⟩
  | .hbm, ⟨38, _⟩ => ⟨S64x64, .f32⟩
  | .hbm, ⟨39, _⟩ => ⟨S1x64, .f32⟩
  | .hbm, ⟨40, _⟩ => ⟨S100000x64, .f32⟩
  | .local _ .vmem, ⟨0, _⟩ => ⟨S20000x64, .f32⟩
  | .local _ .vmem, ⟨1, _⟩ => ⟨S20000x64, .f32⟩
  | .local _ .vmem, ⟨2, _⟩ => ⟨S64x3, .f32⟩
  | .local _ .vmem, ⟨3, _⟩ => ⟨S1x3, .f32⟩
  | .local _ .vmem, ⟨4, _⟩ => ⟨S64x64, .f32⟩
  | .local _ .vmem, ⟨5, _⟩ => ⟨S1x64, .f32⟩
  | .local _ .vmem, ⟨6, _⟩ => ⟨S20000x64, .f32⟩
  | .local _ .vmem, ⟨7, _⟩ => ⟨S20000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S20000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  concatenates_S1000000x64_S1000000x1_S1000000x65_d1 : Shape.Concatenates [S1000000x64, S1000000x1] S1000000x65 1
  bcast_S_S100000x65 : S_.BroadcastsInDim S100000x65 (![] : Fin 0 → Fin S100000x65.rank)
  slices_S100000x65_S100000x64_0_0 : S100000x65.Slices ![0, 0] S100000x64
  slices_S100000x65_S100000x1_0_64 : S100000x65.Slices ![0, 64] S100000x1
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  transposes_S64x64_S64x64_1_0 : S64x64.Transposes [1, 0] S64x64
  shapeCasts_S64_S1x64 : S64.ShapeCasts S1x64
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  inb_S64x3_S64x3_0_0 : ∀ a, (![0, 0] : Fin 2 → Nat) a + S64x3.size a ≤ S64x3.size a
  h_S64x3 : 0 < S64x3.numel
  inb_S1x3_S1x3_0_0 : ∀ a, (![0, 0] : Fin 2 → Nat) a + S1x3.size a ≤ S1x3.size a
  h_S1x3 : 0 < S1x3.numel
  broadcasts_S1x3_S20000x3 : S1x3.Broadcasts S20000x3
  reduces_S20000x3_S20000 : S20000x3.Reduces [1] S20000
  shapeCasts_S20000_S20000x1 : S20000.ShapeCasts S20000x1
  broadcasts_S20000x1_S20000x3 : S20000x1.Broadcasts S20000x3
  natLt_1_32 : 1 < 32
  broadcasts_S20000x1_S20000x64 : S20000x1.Broadcasts S20000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  bitsLt_bf16_f32 : FTy.bits .bf16 < FTy.bits .f32
  broadcasts_S1x64_S20000x64 : S1x64.Broadcasts S20000x64
  gather_S100000x64_S1000000x1_S1000000x64_1_0_n_n_0_1_164_wf : GatherDims.WF S100000x64 S1000000x1 S1000000x64 [1] [0] [] [0] [] 1 ![1, 64]
  scatter_S100000x65_S1000000x1_S1000000x65_1_0_0_1_wf : ScatterDims.WF S100000x65 S1000000x1 S1000000x65 [1] [0] [0] 1
  dot_S20000x64_S64x3_S20000x3_1_0_0_1_n_n_wf : DotDims.WF S20000x64 S64x3 S20000x3 [1] [0] [0] [1] [] []
  dot_S20000x64_S64x64_S20000x64_1_0_0_1_n_n_wf : DotDims.WF S20000x64 S64x64 S20000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x64.size a ≤ S100000x64.size a
  hwx0_0 : ∀ i : grid0.Coords, EltTy.bits .f32 = 32 ∨ (Rect.block (s := S100000x64) S20000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x3.size a ≤ S64x3.size a
  hwx0_1 : ∀ i : grid0.Coords, EltTy.bits .f32 = 32 ∨ (Rect.block (s := S64x3) S64x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3.size a ≤ S1x3.size a
  hwx0_2 : ∀ i : grid0.Coords, EltTy.bits .f32 = 32 ∨ (Rect.block (s := S1x3) S1x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S20000x64.size a ≤ S100000x64.size a
  hwx0_5 : ∀ i : grid0.Coords, EltTy.bits .f32 = 32 ∨ (Rect.block (s := S100000x64) S20000x64.size (cc0_transform_5 i) (hinb0_5 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x65_S1000000x1_S1000000x65_1_0_0_1 : ScatterDims S100000x65 S1000000x1 S1000000x65 where
  updateWindowDims := [1]
  insertedWindowDims := [0]
  scatterDimsToOperandDims := [0]
  indexVectorDim := 1
  wf := scatter_S100000x65_S1000000x1_S1000000x65_1_0_0_1_wf
def dot_S20000x64_S64x3_S20000x3_1_0_0_1_n_n : DotDims S20000x64 S64x3 S20000x3 where
  lhsContracting := [1]
  rhsContracting := [0]
  lhsNonContracting := [0]
  rhsNonContracting := [1]
  lhsBatch := []
  rhsBatch := []
  wf := dot_S20000x64_S64x3_S20000x3_1_0_0_1_n_n_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf

abbrev win0_0 : Pipeline.Window sig grid0 :=
  Pipeline.Window.ofSpec (Memref.whole main_v20) S20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S20000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S1000000 : Shape := ⟨1, ![1000000]⟩
abbrev S64x3 : Shape := ⟨2, ![64, 3]⟩
abbrev S1x3 : Shape := ⟨2, ![1, 3]⟩
abbrev S64x64 : Shape := ⟨2, ![64, 64]⟩
abbrev S64 : Shape := ⟨1, ![64]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S100000x3 : Shape := ⟨2, ![100000, 3]⟩
abbrev S1x64 : Shape := ⟨2, ![1, 64]⟩

abbrev nBuf : Space → Nat
  | .hbm => 63
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S64x3, .f32⟩
  | .hbm, ⟨4, _⟩ => ⟨S1x3, .f32⟩
  | .hbm, ⟨5, _⟩ => ⟨S64x64, .f32⟩
  | .hbm, ⟨6, _⟩ => ⟨S64, .f32⟩
  | .hbm, ⟨7, _⟩ => ⟨S_, .i32⟩
  | .hbm, ⟨8, _⟩ => ⟨S1000000, .i32⟩
  | .hbm, ⟨9, _⟩ => ⟨S1000000, .i1⟩
  | .hbm, ⟨10, _⟩ => ⟨S_, .i32⟩
  | .hbm, ⟨11, _⟩ => ⟨S1000000, .i32⟩
  | .hbm, ⟨12, _⟩ => ⟨S1000000, .i32⟩
  | .hbm, ⟨13, _⟩ => ⟨S1000000, .i32⟩
  | .hbm, ⟨14, _⟩ => ⟨S1000000x1, .i32⟩
  | .hbm, ⟨15, _⟩ => ⟨S1000000x64, .f32⟩
  | .hbm, ⟨16, _⟩ => ⟨S_, .f32⟩
  | .hbm, ⟨17, _⟩ => ⟨S100000x64, .f32⟩
  | .hbm, ⟨18, _⟩ => ⟨S1000000x1, .i32⟩
  | .hbm, ⟨19, _⟩ => ⟨S100000x64, .f32⟩
  | .hbm, ⟨20, _⟩ => ⟨S_, .f32⟩
  | .hbm, ⟨21, _⟩ => ⟨S1000000, .f32⟩
  | .hbm, ⟨22, _⟩ => ⟨S_, .f32⟩
  | .hbm, ⟨23, _⟩ => ⟨S100000, .f32⟩
  | .hbm, ⟨24, _⟩ => ⟨S1000000x1, .i32⟩
  | .hbm, ⟨25, _⟩ => ⟨S100000, .f32⟩
  | .hbm, ⟨26, _⟩ => ⟨S100000x1, .f32⟩
  | .hbm, ⟨27, _⟩ => ⟨S_, .f32⟩
  | .hbm, ⟨28, _⟩ => ⟨S100000x1, .f32⟩
  | .hbm, ⟨29, _⟩ => ⟨S100000x1, .i1⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x64, .f32⟩
  | .hbm, ⟨35, _⟩ => ⟨S100000x64, .f32⟩
  | .hbm, ⟨36, _⟩ => ⟨S_, .f32⟩
  | .hbm, ⟨37, _⟩ => ⟨S_, .f32⟩
  | .hbm, ⟨38, _⟩ => ⟨S100000x64, .i1⟩
  | .hbm, ⟨39, _⟩ => ⟨S100000x64, .f32⟩
  | .hbm, ⟨40, _⟩ => ⟨S100000x64, .f32⟩
  | .hbm, ⟨41, _⟩ => ⟨S100000x3, .f32⟩
  | .hbm, ⟨42, _⟩ => ⟨S100000x3, .f32⟩
  | .hbm, ⟨43, _⟩ => ⟨S100000x3, .f32⟩
  | .hbm, ⟨44, _⟩ => ⟨S_, .f32⟩
  | .hbm, ⟨45, _⟩ => ⟨S100000x3, .f32⟩
  | .hbm, ⟨46, _⟩ => ⟨S100000x3, .f32⟩
  | .hbm, ⟨47, _⟩ => ⟨S_, .f32⟩
  | .hbm, ⟨48, _⟩ => ⟨S100000, .f32⟩
  | .hbm, ⟨49, _⟩ => ⟨S100000x1, .f32⟩
  | .hbm, ⟨50, _⟩ => ⟨S100000x3, .f32⟩
  | .hbm, ⟨51, _⟩ => ⟨S100000x3, .i1⟩
  | .hbm, ⟨52, _⟩ => ⟨S100000x3, .f32⟩
  | .hbm, ⟨53, _⟩ => ⟨S_, .f32⟩
  | .hbm, ⟨54, _⟩ => ⟨S100000, .f32⟩
  | .hbm, ⟨55, _⟩ => ⟨S100000x1, .f32⟩
  | .hbm, ⟨56, _⟩ => ⟨S100000x64, .f32⟩
  | .hbm, ⟨57, _⟩ => ⟨S100000x64, .f32⟩
  | .hbm, ⟨58, _⟩ => ⟨S64x64, .f32⟩
  | .hbm, ⟨59, _⟩ => ⟨S100000x64, .f32⟩
  | .hbm, ⟨60, _⟩ => ⟨S1x64, .f32⟩
  | .hbm, ⟨61, _⟩ => ⟨S100000x64, .f32⟩
  | .hbm, ⟨62, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_call1_cst : Ref sig .tc := ⟨.hbm, 44, rfl⟩
abbrev main_call1_v0 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S1x3_S100000x3_0_1 : S1x3.BroadcastsInDim S100000x3 (![0, 1] : Fin 2 → Fin S100000x3.rank)
  bcast_S_S100000x3 : S_.BroadcastsInDim S100000x3 (![] : Fin 0 → Fin S100000x3.rank)
  reducesTo_S100000x3_S100000_d1 : S100000x3.ReducesTo [1] S100000
  h_S_ : 0 < S_.numel
  bcast_S100000x1_S100000x3_0_1 : S100000x1.BroadcastsInDim S100000x3 (![0, 1] : Fin 2 → Fin S100000x3.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x64_S64x3_S100000x3_1_0_0_1_n_n_wf : DotDims.WF S100000x64 S64x3 S100000x3 [1] [0] [0] [1] [] []
  dot_S100000x64_S64x64_S100000x64_1_0_0_1_n_n_wf : DotDims.WF S100000x64 S64x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x3_S100000x3_1_0_0_1_n_n : DotDims S100000x64 S64x3 S100000x3 where
  lhsContracting := [1]
  rhsContracting := [0]
  lhsNonContracting := [0]
  rhsNonContracting := [1]
  lhsBatch := []
  rhsBatch := []
  wf := dot_S100000x64_S64x3_S100000x3_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibScatterRows.lean ====
/-
  A float scatter-add along the leading axis, read at an index (at the exact instance).

  The operation takes an operand of `N` rows, one signed row number per update (`E` of them, held as an `E × 1`
  integer array) and the updates, and adds update `e` into row `idx e` when `0 ≤ idx e < N`; an update whose row number
  is out of range is dropped. Two layouts: the operand `N × C` with updates `E × C` (a whole row per update), and the operand
  a vector of `N` entries with updates a vector of `E` entries. For both, the result at row `n` is the operand's entry
  plus the sum, over the updates that land on row `n` (`lands`), of the update's entry in the same column — a sum indexed
  by the update number alone, whatever the column count. This is what lets two scatters of different widths along the
  same row numbers be compared column by column.
-/
import Idealize.ShloMosaic.PureOps.Ideal
import Idealize.ShloMosaic.Lib.ValueIdx

noncomputable section

open scoped BigOperators
open Idealize.ShloMosaic Idealize.ShloMosaic.ValueIdx

namespace Cert.LibScatterRows

variable {N E C w : Nat}

/-- Equal axes give equal coordinates of an index. -/
theorem val_congr {n : Nat} {d : Fin n → Nat} (j : (a : Fin n) → Fin (d a)) {a b : Fin n} (h : a = b) : (j a).val = (j b).val := by
  subst h; rfl

theorem mem1 : (1 : Fin 2) ∈ (List.finRange 2).filter (fun x : Fin 2 => x ∉ ([0] : List (Fin 2))) := by decide
theorem nmem0 : (0 : Fin 2) ∉ (List.finRange 2).filter (fun x : Fin 2 => x ∉ ([0] : List (Fin 2))) := by decide
theorem nmem0' : (0 : Fin 1) ∉ (List.finRange 1).filter (fun x : Fin 1 => x ∉ ([0] : List (Fin 1))) := by decide

/-! ## Operand `N × C`, updates `E × C`: where update element `(e, c)` lands -/

/-- On the row axis the window starts at update `e`'s row number, read signed. -/
theorem start0 (d : ScatterDims ⟨2, ![N, C]⟩ ⟨2, ![E, 1]⟩ ⟨2, ![E, C]⟩)
    (hu : d.updateWindowDims = [1]) (hi : d.insertedWindowDims = [0]) (hs : d.scatterDimsToOperandDims = [0]) (hv : d.indexVectorDim = 1)
    (idx : IVec ⟨2, ![E, 1]⟩ w) (j : (⟨2, ![E, C]⟩ : Shape).Idx) :
    d.start j idx 0 = (idx (ix2 (j 0) 0)).toInt := by
  obtain ⟨uw, iw, sd, iv, wf⟩ := d
  simp only at hu hi hs hv
  subst hu hi hs hv
  unfold ScatterDims.start
  rw [dif_pos (List.mem_singleton.2 rfl)]
  refine congrArg (fun k => (idx k).toInt) (funext fun b => ?_)
  obtain ⟨bv, hbv⟩ := b
  have hb : bv = 0 ∨ bv = 1 := by change bv < 2 at hbv; omega
  rcases hb with rfl | rfl
  · apply Fin.ext
    simp only [ScatterDims.siIdx, ScatterDims.siCoord, ScatterDims.uScatter, ScatterDims.siKept, Fin.coe_cast]
    split
    · rename_i h; exact absurd h Nat.zero_ne_one
    · simp only [Fin.coe_cast]
      exact val_congr j rfl
  · apply Fin.ext
    simp [ScatterDims.siIdx]

/-- On the column axis the window starts at zero. -/
theorem start1 (d : ScatterDims ⟨2, ![N, C]⟩ ⟨2, ![E, 1]⟩ ⟨2, ![E, C]⟩)
    (hu : d.updateWindowDims = [1]) (hi : d.insertedWindowDims = [0]) (hs : d.scatterDimsToOperandDims = [0]) (hv : d.indexVectorDim = 1)
    (idx : IVec ⟨2, ![E, 1]⟩ w) (j : (⟨2, ![E, C]⟩ : Shape).Idx) :
    d.start j idx 1 = 0 := by
  obtain ⟨uw, iw, sd, iv, wf⟩ := d
  simp only at hu hi hs hv
  subst hu hi hs hv
  unfold ScatterDims.start
  exact dif_neg (show (1 : Fin 2) ∉ ([0] : List (Fin 2)) by decide)

/-- The row axis is inserted: no window coordinate there. -/
theorem window0 (d : ScatterDims ⟨2, ![N, C]⟩ ⟨2, ![E, 1]⟩ ⟨2, ![E, C]⟩)
    (hu : d.updateWindowDims = [1]) (hi : d.insertedWindowDims = [0]) (hs : d.scatterDimsToOperandDims = [0]) (hv : d.indexVectorDim = 1)
    (j : (⟨2, ![E, C]⟩ : Shape).Idx) :
    d.window j 0 = 0 := by
  obtain ⟨uw, iw, sd, iv, wf⟩ := d
  simp only at hu hi hs hv
  subst hu hi hs hv
  unfold ScatterDims.window
  exact dif_neg nmem0

/-- On the column axis the window coordinate is the update element's column. -/
theorem window1 (d : ScatterDims ⟨2, ![N, C]⟩ ⟨2, ![E, 1]⟩ ⟨2, ![E, C]⟩)
    (hu : d.updateWindowDims = [1]) (hi : d.insertedWindowDims = [0]) (hs : d.scatterDimsToOperandDims = [0]) (hv : d.indexVectorDim = 1)
    (j : (⟨2, ![E, C]⟩ : Shape).Idx) :
    d.window j 1 = (j 1).val := by
  obtain ⟨uw, iw, sd, iv, wf⟩ := d
  simp only at hu hi hs hv
  subst hu hi hs hv
  unfold ScatterDims.window
  refine (dif_pos mem1).trans ?_
  exact val_congr j rfl

/-- Update element `(e, c')` lands on operand element `(n, c)` exactly when `e`'s row number, read signed, is `n` (so in
    range) and `c' = c`. -/
theorem resultIdx_row (d : ScatterDims ⟨2, ![N, C]⟩ ⟨2, ![E, 1]⟩ ⟨2, ![E, C]⟩)
    (hu : d.updateWindowDims = [1]) (hi : d.insertedWindowDims = [0]) (hs : d.scatterDimsToOperandDims = [0]) (hv : d.indexVectorDim = 1)
    (idx : IVec ⟨2, ![E, 1]⟩ w) (j : (⟨2, ![E, C]⟩ : Shape).Idx) (i : (⟨2, ![N, C]⟩ : Shape).Idx) :
    d.resultIdx? j idx = some i ↔
      ((0 ≤ (idx (ix2 (j 0) 0)).toInt ∧ (idx (ix2 (j 0) 0)).toInt < (N : Int) ∧ (idx (ix2 (j 0) 0)).toInt.toNat = (i 0).val)
        ∧ (j 1).val = (i 1).val) := by
  have e0 : d.start j idx 0 + (d.window j 0 : Int) = (idx (ix2 (j 0) 0)).toInt := by
    rw [start0 d hu hi hs hv, window0 d hu hi hs hv]; simp
  have e1 : d.start j idx 1 + (d.window j 1 : Int) = ((j 1).val : Int) := by
    rw [start1 d hu hi hs hv, window1 d hu hi hs hv]; simp
  have hjC : (j 1).val < C := (j 1).isLt
  unfold ScatterDims.resultIdx?
  constructor
  · intro hr
    split at hr
    · rename_i h
      injection hr with hr
      have h0 := h 0
      have r0 := congrArg Fin.val (congrFun hr 0)
      have r1 := congrArg Fin.val (congrFun hr 1)
      simp only at r0 r1
      rw [e0] at h0 r0; rw [e1] at r1
      exact ⟨⟨h0.1, h0.2, r0⟩, by omega⟩
    · exact absurd hr (by simp)
  · rintro ⟨⟨hz0, hzN, hz⟩, hj⟩
    have h : ∀ a, 0 ≤ d.start j idx a + (d.window j a : Int) ∧ d.start j idx a + (d.window j a : Int) < ((⟨2, ![N, C]⟩ : Shape).size a : Int) := by
      intro a
      obtain ⟨av, hav⟩ := a
      have hb : av = 0 ∨ av = 1 := by change av < 2 at hav; omega
      rcases hb with rfl | rfl
      · show 0 ≤ d.start j idx 0 + (d.window j 0 : Int) ∧ d.start j idx 0 + (d.window j 0 : Int) < (N : Int)
        rw [e0]; exact ⟨hz0, hzN⟩
      · show 0 ≤ d.start j idx 1 + (d.window j 1 : Int) ∧ d.start j idx 1 + (d.window j 1 : Int) < (C : Int)
        rw [e1]; omega
    rw [dif_pos h]
    refine congrArg some (funext fun a => Fin.ext ?_)
    obtain ⟨av, hav⟩ := a
    have hb : av = 0 ∨ av = 1 := by change av < 2 at hav; omega
    rcases hb with rfl | rfl
    · show (d.start j idx 0 + (d.window j 0 : Int)).toNat = (i 0).val
      rw [e0]; exact hz
    · show (d.start j idx 1 + (d.window j 1 : Int)).toNat = (i 1).val
      rw [e1]; omega

/-! ## Operand a vector of `N` entries, updates a vector of `E` entries -/

theorem start0' (d : ScatterDims ⟨1, ![N]⟩ ⟨2, ![E, 1]⟩ ⟨1, ![E]⟩)
    (hu : d.updateWindowDims = []) (hi : d.insertedWindowDims = [0]) (hs : d.scatterDimsToOperandDims = [0]) (hv : d.indexVectorDim = 1)
    (idx : IVec ⟨2, ![E, 1]⟩ w) (j : (⟨1, ![E]⟩ : Shape).Idx) :
    d.start j idx 0 = (idx (ix2 (j 0) 0)).toInt := by
  obtain ⟨uw, iw, sd, iv, wf⟩ := d
  simp only at hu hi hs hv
  subst hu hi hs hv
  unfold ScatterDims.start
  rw [dif_pos (List.mem_singleton.2 rfl)]
  refine congrArg (fun k => (idx k).toInt) (funext fun b => ?_)
  obtain ⟨bv, hbv⟩ := b
  have hb : bv = 0 ∨ bv = 1 := by change bv < 2 at hbv; omega
  rcases hb with rfl | rfl
  · apply Fin.ext
    simp only [ScatterDims.siIdx, ScatterDims.siCoord, ScatterDims.uScatter, ScatterDims.siKept, Fin.coe_cast]
    split
    · rename_i h; exact absurd h Nat.zero_ne_one
    · simp only [Fin.coe_cast]
      exact val_congr j rfl
  · apply Fin.ext
    simp [ScatterDims.siIdx]

theorem window0' (d : ScatterDims ⟨1, ![N]⟩ ⟨2, ![E, 1]⟩ ⟨1, ![E]⟩)
    (hu : d.updateWindowDims = []) (hi : d.insertedWindowDims = [0]) (hs : d.scatterDimsToOperandDims = [0]) (hv : d.indexVectorDim = 1)
    (j : (⟨1, ![E]⟩ : Shape).Idx) :
    d.window j 0 = 0 := by
  obtain ⟨uw, iw, sd, iv, wf⟩ := d
  simp only at hu hi hs hv
  subst hu hi hs hv
  unfold ScatterDims.window
  exact dif_neg nmem0'

/-- Update `e` lands on entry `n` exactly when `e`'s row number, read signed, is `n`. -/
theorem resultIdx_vec (d : ScatterDims ⟨1, ![N]⟩ ⟨2, ![E, 1]⟩ ⟨1, ![E]⟩)
    (hu : d.updateWindowDims = []) (hi : d.insertedWindowDims = [0]) (hs : d.scatterDimsToOperandDims = [0]) (hv : d.indexVectorDim = 1)
    (idx : IVec ⟨2, ![E, 1]⟩ w) (j : (⟨1, ![E]⟩ : Shape).Idx) (i : (⟨1, ![N]⟩ : Shape).Idx) :
    d.resultIdx? j idx = some i ↔
      (0 ≤ (idx (ix2 (j 0) 0)).toInt ∧ (idx (ix2 (j 0) 0)).toInt < (N : Int) ∧ (idx (ix2 (j 0) 0)).toInt.toNat = (i 0).val) := by
  have e0 : d.start j idx 0 + (d.window j 0 : Int) = (idx (ix2 (j 0) 0)).toInt := by
    rw [start0' d hu hi hs hv, window0' d hu hi hs hv]; simp
  unfold ScatterDims.resultIdx?
  constructor
  · intro hr
    split at hr
    · rename_i h
      injection hr with hr
      have h0 := h 0
      have r0 := congrArg Fin.val (congrFun hr 0)
      simp only at r0
      rw [e0] at h0 r0
      exact ⟨h0.1, h0.2, r0⟩
    · exact absurd hr (by simp)
  · rintro ⟨hz0, hzN, hz⟩
    have h : ∀ a, 0 ≤ d.start j idx a + (d.window j a : Int) ∧ d.start j idx a + (d.window j a : Int) < ((⟨1, ![N]⟩ : Shape).size a : Int) := by
      intro a
      obtain ⟨av, hav⟩ := a
      have hb : av = 0 := by change av < 1 at hav; omega
      subst hb
      show 0 ≤ d.start j idx 0 + (d.window j 0 : Int) ∧ d.start j idx 0 + (d.window j 0 : Int) < (N : Int)
      rw [e0]; exact ⟨hz0, hzN⟩
    rw [dif_pos h]
    refine congrArg some (funext fun a => Fin.ext ?_)
    obtain ⟨av, hav⟩ := a
    have hb : av = 0 := by change av < 1 at hav; omega
    subst hb
    show (d.start j idx 0 + (d.window j 0 : Int)).toNat = (i 0).val
    rw [e0]; exact hz

/-! ## The scatter-add read at a row -/

/-- At the exact instance the host's accumulating scatter is the exact sum, whatever the shapes. -/
theorem scatterAdd_eq {s si u : Shape} {w : Nat} {φ : FTy} (d : ScatterDims s si u) (x : FVec Ideal s φ) (idx : IVec si w) (upd : FVec Ideal u φ) :
    Host.scatterAdd d x idx upd = Ideal.hostScatterAdd d x idx upd := rfl

/-- Update `e`'s row number, read signed, is row `n` of an operand with `N` rows. -/
def lands (N : Nat) {E w : Nat} (idx : IVec ⟨2, ![E, 1]⟩ w) (e : Fin E) (n : Nat) : Prop :=
  0 ≤ (idx (ix2 e 0)).toInt ∧ (idx (ix2 e 0)).toInt < (N : Int) ∧ (idx (ix2 e 0)).toInt.toNat = n

instance (N : Nat) {E w : Nat} (idx : IVec ⟨2, ![E, 1]⟩ w) (e : Fin E) (n : Nat) : Decidable (lands N idx e n) := by
  unfold lands; infer_instance

/-- Row form: the result at `(n, c)` is the operand there plus the sum, over the updates landing on row `n`, of their
    column `c`. (The sum over update elements `(e, c')` keeps only `c' = c`.) -/
theorem hostScatterAdd_row (d : ScatterDims ⟨2, ![N, C]⟩ ⟨2, ![E, 1]⟩ ⟨2, ![E, C]⟩)
    (hu : d.updateWindowDims = [1]) (hi : d.insertedWindowDims = [0]) (hs : d.scatterDimsToOperandDims = [0]) (hv : d.indexVectorDim = 1)
    (x : (⟨2, ![N, C]⟩ : Shape).Idx → EReal) (idx : IVec ⟨2, ![E, 1]⟩ w) (upd : (⟨2, ![E, C]⟩ : Shape).Idx → EReal) (n : Fin N) (c : Fin C) :
    Ideal.hostScatterAdd d x idx upd (ix2 n c)
      = x (ix2 n c) + ∑ e ∈ Finset.univ.filter (fun e : Fin E => lands N idx e n.val), upd (ix2 e c) := by
  unfold Ideal.hostScatterAdd
  congr 1
  rw [Finset.sum_filter, Finset.sum_filter, sum_idx2]
  refine Finset.sum_congr rfl fun e _ => ?_
  simp only [resultIdx_row d hu hi hs hv]
  show (∑ b : Fin C, if (lands N idx e n.val ∧ b.val = c.val) then upd (ix2 e b) else 0) = _
  by_cases hl : lands N idx e n.val
  · simp only [hl, true_and, if_true, Fin.val_inj, Finset.sum_ite_eq', Finset.mem_univ]
  · simp only [hl, false_and, if_false, Finset.sum_const_zero]

/-- A sum over a rank-1 index set is the sum over its one coordinate. -/
theorem sum_idx1 {M : Type*} [AddCommMonoid M] {n0 : Nat} (f : (⟨1, ![n0]⟩ : Shape).Idx → M) :
    ∑ i, f i = ∑ a : Fin n0, f (ix1 a) := by
  refine Fintype.sum_equiv ⟨fun i => i 0, fun a => ix1 a, fun i => (eq_ix1 i).symm, fun _ => rfl⟩ _ _ fun i => ?_
  exact congrArg f (eq_ix1 i)

/-- Vector form: the result at `n` is the operand there plus the sum of the updates landing on `n`. -/
theorem hostScatterAdd_vec (d : ScatterDims ⟨1, ![N]⟩ ⟨2, ![E, 1]⟩ ⟨1, ![E]⟩)
    (hu : d.updateWindowDims = []) (hi : d.insertedWindowDims = [0]) (hs : d.scatterDimsToOperandDims = [0]) (hv : d.indexVectorDim = 1)
    (x : (⟨1, ![N]⟩ : Shape).Idx → EReal) (idx : IVec ⟨2, ![E, 1]⟩ w) (upd : (⟨1, ![E]⟩ : Shape).Idx → EReal) (n : Fin N) :
    Ideal.hostScatterAdd d x idx upd (ix1 n)
      = x (ix1 n) + ∑ e ∈ Finset.univ.filter (fun e : Fin E => lands N idx e n.val), upd (ix1 e) := by
  unfold Ideal.hostScatterAdd
  congr 1
  rw [Finset.sum_filter, Finset.sum_filter, sum_idx1]
  refine Finset.sum_congr rfl fun e _ => ?_
  simp only [resultIdx_vec d hu hi hs hv]
  rfl

end Cert.LibScatterRows

end
-- ==== Proof.Spec.lean ====
/-
  What both programs compute, as functions of the argument arrays, element by element over the extended reals.

  Stage 1 (mean aggregation). From the gathered messages `g` (one row of 64 per edge) and the edges' destination
  numbers `seg`: `msum n c` is the sum of column `c` over the edges whose destination is node `n`, `deg n` the number of
  such edges (a sum of ones), and `hmean` the quotient `msum / max(deg, 1)` where `deg > 0`, zero elsewhere.

  Stage 2 (gating and projection), one node's row `r` of 64 at a time: `score r g = max(r · W_gc[:, g] + b_gc[g], 0)`
  for the three groups, `top` their maximum, `gate` the number of groups attaining it, and the output row
  `(r · gate) · Wt + b`. A row's output depends on that row alone, which is why a tile of rows can be computed by itself.
-/
import Idealize.ShloMosaic.PureOps.Ideal
import Idealize.ShloMosaic.PureOps.Ideal.Laws
import Idealize.ShloMosaic.Lib.ValueIdx
import proofs.«429195_j13718125543735_3_alg».proof.Proof.LibScatterRows

noncomputable section

open scoped BigOperators
open Idealize.ShloMosaic Idealize.ShloMosaic.ValueIdx Cert.LibScatterRows

namespace Cert.Spec

/-- The float words the programs splat: `0.0`, `1.0`, `-inf`. Kept as words: the same word stands on both sides. -/
abbrev zero : EReal := Ideal.ofBits .f32 0x00000000#32
abbrev one : EReal := Ideal.ofBits .f32 0x3F800000#32
abbrev ninf : EReal := Ideal.ofBits .f32 0xFF800000#32

/-! ## Stage 1: the mean over incoming edges -/

/-- Column `c` of the messages, summed over the edges into node `n`. -/
def msum (g : (⟨2, ![1000000, 64]⟩ : Shape).Idx → EReal) (seg : IVec ⟨2, ![1000000, 1]⟩ 32) (n : Fin 100000) (c : Fin 64) : EReal :=
  zero + ∑ e ∈ Finset.univ.filter (fun e : Fin 1000000 => lands 100000 seg e n.val), g (ix2 e c)

/-- The number of edges into node `n`, as a sum of ones. -/
def deg (seg : IVec ⟨2, ![1000000, 1]⟩ 32) (n : Fin 100000) : EReal :=
  zero + ∑ e ∈ Finset.univ.filter (fun e : Fin 1000000 => lands 100000 seg e n.val), one

/-- The mean message of node `n`, zero for a node with no incoming edge. -/
def hmean (g : (⟨2, ![1000000, 64]⟩ : Shape).Idx → EReal) (seg : IVec ⟨2, ![1000000, 1]⟩ 32) :
    (⟨2, ![100000, 64]⟩ : Shape).Idx → EReal := fun i =>
  Scalar.select (Ideal.cmp .ogt (deg seg (i 0)) zero) (Ideal.div (msum g seg (i 0) (i 1)) (max (deg seg (i 0)) one)) zero

/-! ## Stage 2: one node's row -/

/-- Group `g`'s score of the row `r`. -/
def score (r : Fin 64 → EReal) (wg : (⟨2, ![64, 3]⟩ : Shape).Idx → EReal) (bg : (⟨2, ![1, 3]⟩ : Shape).Idx → EReal) (g : Fin 3) : EReal :=
  max ((∑ k : Fin 64, r k * wg (ix2 k g)) + bg (ix2 0 g)) zero

/-- The largest of the three scores. -/
def top (r : Fin 64 → EReal) (wg : (⟨2, ![64, 3]⟩ : Shape).Idx → EReal) (bg : (⟨2, ![1, 3]⟩ : Shape).Idx → EReal) : EReal :=
  (Finset.univ : Finset (Fin 3)).fold max ninf (score r wg bg)

/-- How many groups attain the largest score. -/
def gate (r : Fin 64 → EReal) (wg : (⟨2, ![64, 3]⟩ : Shape).Idx → EReal) (bg : (⟨2, ![1, 3]⟩ : Shape).Idx → EReal) : EReal :=
  ∑ g : Fin 3, (((Ideal.cmp .oeq (score r wg bg g) (top r wg bg)).toNat : ℝ) : EReal)

/-- The output row: the gated row times the transposed weight `wt` (indexed input, output), plus the bias. -/
def outRow (r : Fin 64 → EReal) (wg : (⟨2, ![64, 3]⟩ : Shape).Idx → EReal) (bg : (⟨2, ![1, 3]⟩ : Shape).Idx → EReal)
    (wt : Fin 64 → Fin 64 → EReal) (b : Fin 64 → EReal) (q : Fin 64) : EReal :=
  (∑ k : Fin 64, (r k * gate r wg bg) * wt k q) + b q

/-- The whole result: every node's output row, from the mean messages `h`, the gating weights, and the linear layer's
    weight `wl` (indexed output, input) and bias. -/
def out (h : (⟨2, ![100000, 64]⟩ : Shape).Idx → EReal) (wg : (⟨2, ![64, 3]⟩ : Shape).Idx → EReal) (bg : (⟨2, ![1, 3]⟩ : Shape).Idx → EReal)
    (wl : (⟨2, ![64, 64]⟩ : Shape).Idx → EReal) (bl : (⟨1, ![64]⟩ : Shape).Idx → EReal) : (⟨2, ![100000, 64]⟩ : Shape).Idx → EReal := fun i =>
  outRow (fun k => h (ix2 (i 0) k)) wg bg (fun k q => wl (ix2 q k)) (fun q => bl (ix1 q)) (i 1)

theorem top_def (r : Fin 64 → EReal) (wg : (⟨2, ![64, 3]⟩ : Shape).Idx → EReal) (bg : (⟨2, ![1, 3]⟩ : Shape).Idx → EReal) :
    top r wg bg = (Finset.univ : Finset (Fin 3)).fold max ninf (score r wg bg) := rfl

/-- The fold of the instance's maximum from the word `-inf` is the fold of `max` from `ninf`. -/
theorem fold_max_eq (sc : Fin 3 → EReal) :
    (Finset.univ : Finset (Fin 3)).fold (FloatOps.maximumf (F := Ideal) (φ := .f32)) (FloatOps.ofBits .f32 0xFF800000#32) sc
      = (Finset.univ : Finset (Fin 3)).fold max ninf sc := rfl

theorem gate_def (r : Fin 64 → EReal) (wg : (⟨2, ![64, 3]⟩ : Shape).Idx → EReal) (bg : (⟨2, ![1, 3]⟩ : Shape).Idx → EReal) :
    gate r wg bg = ∑ g : Fin 3, (((Ideal.cmp .oeq (score r wg bg g) (top r wg bg)).toNat : ℝ) : EReal) := rfl

theorem outRow_def (r : Fin 64 → EReal) (wg : (⟨2, ![64, 3]⟩ : Shape).Idx → EReal) (bg : (⟨2, ![1, 3]⟩ : Shape).Idx → EReal)
    (wt : Fin 64 → Fin 64 → EReal) (b : Fin 64 → EReal) (q : Fin 64) :
    outRow r wg bg wt b q = (∑ k : Fin 64, (r k * gate r wg bg) * wt k q) + b q := rfl

theorem deg_def (seg : IVec ⟨2, ![1000000, 1]⟩ 32) (n : Fin 100000) :
    deg seg n = zero + ∑ e ∈ Finset.univ.filter (fun e : Fin 1000000 => lands 100000 seg e n.val), one := rfl

theorem msum_def (g : (⟨2, ![1000000, 64]⟩ : Shape).Idx → EReal) (seg : IVec ⟨2, ![1000000, 1]⟩ 32) (n : Fin 100000) (c : Fin 64) :
    msum g seg n c = zero + ∑ e ∈ Finset.univ.filter (fun e : Fin 1000000 => lands 100000 seg e n.val), g (ix2 e c) := rfl

theorem hmean_def (g : (⟨2, ![1000000, 64]⟩ : Shape).Idx → EReal) (seg : IVec ⟨2, ![1000000, 1]⟩ 32) (n : Fin 100000) (c : Fin 64) :
    hmean g seg (ix2 n c)
      = Scalar.select (Ideal.cmp .ogt (deg seg n) zero) (Ideal.div (msum g seg n c) (max (deg seg n) one)) zero := rfl

/-- The output row is a function of its six arguments. -/
theorem outRow_congr6 {r r' : Fin 64 → EReal} {wg wg' : (⟨2, ![64, 3]⟩ : Shape).Idx → EReal} {bg bg' : (⟨2, ![1, 3]⟩ : Shape).Idx → EReal}
    {wt wt' : Fin 64 → Fin 64 → EReal} {b b' : Fin 64 → EReal} {q q' : Fin 64}
    (hr : r = r') (hwg : wg = wg') (hbg : bg = bg') (hwt : wt = wt') (hb : b = b') (hq : q = q') :
    outRow r wg bg wt b q = outRow r' wg' bg' wt' b' q' := by
  subst hr hwg hbg hwt hb hq; rfl

theorem out_def (h : (⟨2, ![100000, 64]⟩ : Shape).Idx → EReal) (wg : (⟨2, ![64, 3]⟩ : Shape).Idx → EReal) (bg : (⟨2, ![1, 3]⟩ : Shape).Idx → EReal)
    (wl : (⟨2, ![64, 64]⟩ : Shape).Idx → EReal) (bl : (⟨1, ![64]⟩ : Shape).Idx → EReal) (n : Fin 100000) (q : Fin 64) :
    out h wg bg wl bl (ix2 n q) = outRow (fun k => h (ix2 n k)) wg bg (fun k q => wl (ix2 q k)) (fun q => bl (ix1 q)) q := rfl

/-- The word `0.0` is the number zero. -/
theorem zero_word : FloatOps.ofBits (F := Ideal) .f32 0x00000000#32 = (0 : EReal) := Ideal.ofBits_zero_f32

/-- A one-bit word widened to 32 bits and read signed is the bit read unsigned. -/
theorem toInt_setWidth_bit : ∀ b : BitVec 1, (b.setWidth 32).toInt = (b.toNat : Int) := by decide

end Cert.Spec

end
-- ==== Proof.KernelRow.lean ====
/-
  One row of a tile through the kernel body. The body's stored value at row `p`, column `q` of a tile is the
  specification's output row of row `p` of the loaded tile: a product of that row with the gating weight, the bias
  row added, clipped at zero; the row's largest score; the count of scores equal to it; the row scaled by the count;
  its product with the (already transposed) projection weight, and the bias row. The two products are sums over the
  64 input features; the row maximum is a fold of `max` from `-inf`; the count is a sum of bits.
-/
import proofs.«429195_j13718125543735_3_alg».proof.Proof.Gen.KernelIdeal.Skeleton
import proofs.«429195_j13718125543735_3_alg».proof.Proof.Spec
import Idealize.ShloMosaic.Lib.Pipeline.Value
import Idealize.ShloMosaic.PureOps.Ideal.Laws

noncomputable section

open scoped BigOperators

namespace Cert.KernelIdeal.Row

open Cert.KernelIdeal Cert.KernelIdeal.Gen Idealize.ShloMosaic Idealize.ShloMosaic.ValueIdx Cert.Spec

/-! ## The two products -/

theorem lhsA_0 (i : S20000x3.Idx) (q : dot_S20000x64_S64x3_S20000x3_1_0_0_1_n_n.contr.Idx) :
    (dot_S20000x64_S64x3_S20000x3_1_0_0_1_n_n.lhsIdx i q 0).val = (i 0).val := by
  unfold DotDims.lhsIdx
  rw [dif_neg (show ¬(0 : Fin S20000x64.rank) ∈ dot_S20000x64_S64x3_S20000x3_1_0_0_1_n_n.lhsBatch by decide), dif_pos (show (0 : Fin S20000x64.rank) ∈ dot_S20000x64_S64x3_S20000x3_1_0_0_1_n_n.lhsNonContracting by decide)]
  rfl
theorem lhsA_1 (i : S20000x3.Idx) (q : dot_S20000x64_S64x3_S20000x3_1_0_0_1_n_n.contr.Idx) :
    (dot_S20000x64_S64x3_S20000x3_1_0_0_1_n_n.lhsIdx i q 1).val = (q ⟨0, by decide⟩).val :=
  dot_S20000x64_S64x3_S20000x3_1_0_0_1_n_n.lhsIdx_val_of_single rfl i q
theorem rhsA_0 (i : S20000x3.Idx) (q : dot_S20000x64_S64x3_S20000x3_1_0_0_1_n_n.contr.Idx) :
    (dot_S20000x64_S64x3_S20000x3_1_0_0_1_n_n.rhsIdx i q 0).val = (q ⟨0, by decide⟩).val :=
  dot_S20000x64_S64x3_S20000x3_1_0_0_1_n_n.rhsIdx_val_of_single rfl i q
theorem rhsA_1 (i : S20000x3.Idx) (q : dot_S20000x64_S64x3_S20000x3_1_0_0_1_n_n.contr.Idx) :
    (dot_S20000x64_S64x3_S20000x3_1_0_0_1_n_n.rhsIdx i q 1).val = (i 1).val := by
  unfold DotDims.rhsIdx
  rw [dif_neg (show ¬(1 : Fin S64x3.rank) ∈ dot_S20000x64_S64x3_S20000x3_1_0_0_1_n_n.rhsBatch by decide), dif_pos (show (1 : Fin S64x3.rank) ∈ dot_S20000x64_S64x3_S20000x3_1_0_0_1_n_n.rhsNonContracting by decide)]
  rfl

/-- The product into a zero accumulator, at `(p, q)`: row `p` of the left factor against column `q` of the right. -/
theorem matA (l : FVec Ideal S20000x64 .f32) (r : FVec Ideal S64x3 .f32) (p : Fin 20000) (q : Fin 3) :
    matmul dot_S20000x64_S64x3_S20000x3_1_0_0_1_n_n (some .fp32) l r (constant S20000x3 .f32 0x00000000#32) (ix2 p q) = ∑ k : Fin 64, l (ix2 p k) * r (ix2 k q) := by
  simp only [matmul]
  rw [Ideal.matmul_constant_zero_apply, ← Equiv.sum_comp (ValueIdx.contrEquiv1 dot_S20000x64_S64x3_S20000x3_1_0_0_1_n_n 64 rfl rfl).symm]
  refine Finset.sum_congr rfl fun k _ => ?_
  have hk := ValueIdx.contrEquiv1_symm_val dot_S20000x64_S64x3_S20000x3_1_0_0_1_n_n 64 rfl rfl k
  have el : dot_S20000x64_S64x3_S20000x3_1_0_0_1_n_n.lhsIdx (ix2 p q) ((ValueIdx.contrEquiv1 dot_S20000x64_S64x3_S20000x3_1_0_0_1_n_n 64 rfl rfl).symm k) = ix2 p k := funext fun a => Fin.ext (by
    match a with
    | ⟨0, _⟩ => exact lhsA_0 _ _
    | ⟨1, _⟩ => exact (lhsA_1 _ _).trans hk)
  have er : dot_S20000x64_S64x3_S20000x3_1_0_0_1_n_n.rhsIdx (ix2 p q) ((ValueIdx.contrEquiv1 dot_S20000x64_S64x3_S20000x3_1_0_0_1_n_n 64 rfl rfl).symm k) = ix2 k q := funext fun a => Fin.ext (by
    match a with
    | ⟨0, _⟩ => exact (rhsA_0 _ _).trans hk
    | ⟨1, _⟩ => exact rhsA_1 _ _)
  rw [el, er]

theorem lhsB_0 (i : S20000x64.Idx) (q : dot_S20000x64_S64x64_S20000x64_1_0_0_1_n_n.contr.Idx) :
    (dot_S20000x64_S64x64_S20000x64_1_0_0_1_n_n.lhsIdx i q 0).val = (i 0).val := by
  unfold DotDims.lhsIdx
  rw [dif_neg (show ¬(0 : Fin S20000x64.rank) ∈ dot_S20000x64_S64x64_S20000x64_1_0_0_1_n_n.lhsBatch by decide), dif_pos (show (0 : Fin S20000x64.rank) ∈ dot_S20000x64_S64x64_S20000x64_1_0_0_1_n_n.lhsNonContracting by decide)]
  rfl
theorem lhsB_1 (i : S20000x64.Idx) (q : dot_S20000x64_S64x64_S20000x64_1_0_0_1_n_n.contr.Idx) :
    (dot_S20000x64_S64x64_S20000x64_1_0_0_1_n_n.lhsIdx i q 1).val = (q ⟨0, by decide⟩).val :=
  dot_S20000x64_S64x64_S20000x64_1_0_0_1_n_n.lhsIdx_val_of_single rfl i q
theorem rhsB_0 (i : S20000x64.Idx) (q : dot_S20000x64_S64x64_S20000x64_1_0_0_1_n_n.contr.Idx) :
    (dot_S20000x64_S64x64_S20000x64_1_0_0_1_n_n.rhsIdx i q 0).val = (q ⟨0, by decide⟩).val :=
  dot_S20000x64_S64x64_S20000x64_1_0_0_1_n_n.rhsIdx_val_of_single rfl i q
theorem rhsB_1 (i : S20000x64.Idx) (q : dot_S20000x64_S64x64_S20000x64_1_0_0_1_n_n.contr.Idx) :
    (dot_S20000x64_S64x64_S20000x64_1_0_0_1_n_n.rhsIdx i q 1).val = (i 1).val := by
  unfold DotDims.rhsIdx
  rw [dif_neg (show ¬(1 : Fin S64x64.rank) ∈ dot_S20000x64_S64x64_S20000x64_1_0_0_1_n_n.rhsBatch by decide), dif_pos (show (1 : Fin S64x64.rank) ∈ dot_S20000x64_S64x64_S20000x64_1_0_0_1_n_n.rhsNonContracting by decide)]
  rfl

/-- The product into a zero accumulator, at `(p, q)`: row `p` of the left factor against column `q` of the right. -/
theorem matB (l : FVec Ideal S20000x64 .bf16) (r : FVec Ideal S64x64 .bf16) (p : Fin 20000) (q : Fin 64) :
    matmul dot_S20000x64_S64x64_S20000x64_1_0_0_1_n_n none l r (constant S20000x64 .f32 0x00000000#32) (ix2 p q) = ∑ k : Fin 64, l (ix2 p k) * r (ix2 k q) := by
  simp only [matmul]
  rw [Ideal.matmul_constant_zero_apply, ← Equiv.sum_comp (ValueIdx.contrEquiv1 dot_S20000x64_S64x64_S20000x64_1_0_0_1_n_n 64 rfl rfl).symm]
  refine Finset.sum_congr rfl fun k _ => ?_
  have hk := ValueIdx.contrEquiv1_symm_val dot_S20000x64_S64x64_S20000x64_1_0_0_1_n_n 64 rfl rfl k
  have el : dot_S20000x64_S64x64_S20000x64_1_0_0_1_n_n.lhsIdx (ix2 p q) ((ValueIdx.contrEquiv1 dot_S20000x64_S64x64_S20000x64_1_0_0_1_n_n 64 rfl rfl).symm k) = ix2 p k := funext fun a => Fin.ext (by
    match a with
    | ⟨0, _⟩ => exact lhsB_0 _ _
    | ⟨1, _⟩ => exact (lhsB_1 _ _).trans hk)
  have er : dot_S20000x64_S64x64_S20000x64_1_0_0_1_n_n.rhsIdx (ix2 p q) ((ValueIdx.contrEquiv1 dot_S20000x64_S64x64_S20000x64_1_0_0_1_n_n 64 rfl rfl).symm k) = ix2 k q := funext fun a => Fin.ext (by
    match a with
    | ⟨0, _⟩ => exact (rhsB_0 _ _).trans hk
    | ⟨1, _⟩ => exact rhsB_1 _ _)
  rw [el, er]

/-! ## Rows, columns and their broadcasts -/

/-- A one-row array broadcast down the rows reads its one row. -/
theorem bcastRow3 (v : FVec Ideal S1x3 .f32) (p : Fin 20000) (g : Fin 3) :
    broadcastTo S20000x3 v broadcasts_S1x3_S20000x3 (ix2 p g) = v (ix2 0 g) :=
  broadcastTo_apply v _ (ix2 p g) (ix2 0 g) (fun a => by match a with | ⟨0, _⟩ => rfl | ⟨1, _⟩ => rfl)

theorem bcastRow64 (v : FVec Ideal S1x64 .f32) (p : Fin 20000) (q : Fin 64) :
    broadcastTo S20000x64 v broadcasts_S1x64_S20000x64 (ix2 p q) = v (ix2 0 q) :=
  broadcastTo_apply v _ (ix2 p q) (ix2 0 q) (fun a => by match a with | ⟨0, _⟩ => rfl | ⟨1, _⟩ => rfl)

/-- A vector recast as one column reads the vector at the row. -/
theorem colCast (v : FVec Ideal S20000 .f32) (p : Fin 20000) :
    shapeCast S20000x1 v shapeCasts_S20000_S20000x1 (ix2 p 0) = v (ix1 p) :=
  shapeCast_apply v _ (ix2 p 0) (ix1 p) (by
    rw [Shape.rowMajor_val_one, Shape.rowMajor_val_two]; simp)

/-- A column broadcast across the columns reads the column at the row. -/
theorem bcastCol3 (v : FVec Ideal S20000x1 .f32) (p : Fin 20000) (g : Fin 3) :
    broadcastTo S20000x3 v broadcasts_S20000x1_S20000x3 (ix2 p g) = v (ix2 p 0) :=
  broadcastTo_apply v _ (ix2 p g) (ix2 p 0) (fun a => by match a with | ⟨0, _⟩ => rfl | ⟨1, _⟩ => rfl)

theorem bcastCol64 (v : FVec Ideal S20000x1 .f32) (p : Fin 20000) (q : Fin 64) :
    broadcastTo S20000x64 v broadcasts_S20000x1_S20000x64 (ix2 p q) = v (ix2 p 0) :=
  broadcastTo_apply v _ (ix2 p q) (ix2 p 0) (fun a => by match a with | ⟨0, _⟩ => rfl | ⟨1, _⟩ => rfl)

/-! ## The two reductions along a row of three -/

/-- The row maximum from `-inf`: a fold of `max` over the three entries. -/
theorem rowMax (v : FVec Ideal S20000x3 .f32) (p : Fin 20000) :
    multiReduction .maximumf [1] S20000 v 0xFF800000#32 reduces_S20000x3_S20000 (.inl rfl) rfl (ix1 p)
      = (Finset.univ : Finset (Fin 3)).fold max ninf (fun g => v (ix2 p g)) := by
  refine (Ideal.multiReduction_maximumf_single v _ reduces_S20000x3_S20000 (.inl rfl) rfl (ix1 p)).trans ?_
  have e : (v ∘ reduces_S20000x3_S20000.lift (ix1 p)) = fun g : Fin 3 => v (ix2 p g) :=
    funext fun g => congrArg v (funext fun a => Fin.ext (by match a with | ⟨0, _⟩ => rfl | ⟨1, _⟩ => rfl))
  rw [e]; rfl

/-- The row sum: the three entries added. -/
theorem rowSum (v : FVec Ideal S20000x3 .f32) (p : Fin 20000) :
    multiReduction .add [1] S20000 v 0x00000000#32 reduces_S20000x3_S20000 (.inl rfl) rfl (ix1 p)
      = ∑ g : Fin 3, v (ix2 p g) := by
  refine (Ideal.multiReduction_add_single v _ reduces_S20000x3_S20000 (.inl rfl) rfl (ix1 p)).trans ?_
  exact Finset.sum_congr rfl fun k _ => congrArg v (funext fun a => Fin.ext (by match a with | ⟨0, _⟩ => rfl | ⟨1, _⟩ => rfl))

/-! ## The count's summand -/

/-- A comparison bit widened to a word and converted signed is the bit, as a number. -/
theorem hitBit (a b : FVec Ideal S20000x3 .f32) (i : S20000x3.Idx) :
    (sitofp .f32 (extui 32 (cmpf .oeq a b) natLt_1_32) : FVec Ideal S20000x3 .f32) i
      = (((Ideal.cmp .oeq (a i) (b i)).toNat : ℝ) : EReal) := by
  show (((((Ideal.cmp .oeq (a i) (b i)).setWidth 32).toInt : ℝ)) : EReal) = _
  rw [toInt_setWidth_bit]; simp

/-- The count of a row's entries equal to the row's maximum, from the entries `sc` of that row. -/
theorem count_of (v : FVec Ideal S20000x3 .f32) (p : Fin 20000) (sc : Fin 3 → EReal) (hs : ∀ g, v (ix2 p g) = sc g) :
    (∑ g : Fin 3, (sitofp .f32 (extui 32 (cmpf .oeq v (broadcastTo S20000x3 (shapeCast S20000x1
        (multiReduction .maximumf [1] S20000 v 0xFF800000#32 reduces_S20000x3_S20000 (.inl rfl) rfl)
        shapeCasts_S20000_S20000x1) broadcasts_S20000x1_S20000x3)) natLt_1_32) : FVec Ideal S20000x3 .f32) (ix2 p g))
      = ∑ g : Fin 3, (((Ideal.cmp .oeq (sc g) ((Finset.univ : Finset (Fin 3)).fold max ninf sc)).toNat : ℝ) : EReal) := by
  have e : (fun g => v (ix2 p g)) = sc := funext hs
  refine Finset.sum_congr rfl fun g _ => ?_
  rw [hitBit, bcastCol3, colCast, rowMax, hs g, e]

/-! ## The body's stored value at one element -/

/-- Row `p`, column `q` of what the body stores is the specification's output row of row `p` of the loaded tile. -/
theorem pay_row (x0 : Vec Ideal S20000x64 .f32) (x1 : Vec Ideal S64x3 .f32) (x2 : Vec Ideal S1x3 .f32)
    (x3 : Vec Ideal S64x64 .f32) (x4 : Vec Ideal S1x64 .f32) (p : Fin 20000) (q : Fin 64) :
    k0_pay1 x0 x1 x2 x3 x4 (ix2 p q)
      = outRow (fun k => x0 (ix2 p k)) x1 x2 (fun k q => x3 (ix2 k q)) (fun q => x4 (ix2 0 q)) q := by
  unfold k0_pay1
  simp only [shapeCast_self]
  rw [addf_apply, matB, bcastRow64]
  unfold outRow
  refine congrArg (· + x4 (ix2 0 q)) (Finset.sum_congr rfl fun k _ => ?_)
  rw [truncf_apply, truncf_apply, mulf_apply, bcastCol64, colCast, rowSum]
  have hs : ∀ g : Fin 3, (maximumf (addf (matmul (φ₁ := .f32) (φ₂ := .f32) dot_S20000x64_S64x3_S20000x3_1_0_0_1_n_n (some .fp32) x0 x1 (constant S20000x3 .f32 0x00000000#32))
      (broadcastTo S20000x3 (x2 : FVec Ideal S1x3 .f32) broadcasts_S1x3_S20000x3)) (broadcast S20000x3 (FloatOps.ofBits .f32 0x00000000#32)) : FVec Ideal S20000x3 .f32) (ix2 p g)
      = score (fun k => x0 (ix2 p k)) x1 x2 g := by
    intro g; rw [maximumf_apply, addf_apply, matA, bcastRow3]; rfl
  refine congrArg (fun z => x0 (ix2 p k) * z * x3 (ix2 k q)) ?_
  exact (count_of _ p _ hs).trans rfl

end Cert.KernelIdeal.Row

end
-- ==== Proof.KernelTiles.lean ====
/-
  From tiles to the whole array. Grid point `t` computes rows `20000·t … 20000·t + 19999` of the result from the same
  rows of the mean messages (the weights and biases are whole at every point), so what it writes back is tile `t` of ONE
  whole-array function of the call's operand arrays; the five tiles cover the array, and after the run the result
  array holds that function.
-/
import proofs.«429195_j13718125543735_3_alg».proof.Proof.Gen.KernelIdeal.Value
import proofs.«429195_j13718125543735_3_alg».proof.Proof.KernelRow

noncomputable section

open scoped BigOperators

namespace Cert.KernelIdeal.Tiles

open Cert.KernelIdeal Cert.KernelIdeal.Gen Idealize.ShloMosaic Idealize.ShloMosaic.TcCoe Idealize.SL.Sem Idealize.ShloMosaic.ValueIdx Cert.Spec
open Idealize.ShloMosaic.Pipeline (Dat)

/-- The printed index maps over the five points: the input tile moves with the output tile along the rows, and every
    other block index is zero. -/
theorem idx_facts : ∀ t : Fin cfg0.N, win0_0.index t (0 : Fin 2) = win0_5.index t (0 : Fin 2)
    ∧ win0_0.index t (1 : Fin 2) = 0 ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val :=
  (by decide +kernel : ∀ t : Fin grid0.N, _)

/-! ## The tiles the body loads, for any float values -/

section Blocks

variable {F : FTy → Type} [FloatOps F] (m : (ℓ : Loc nD τ sig) → Buf (Elt F) ℓ)

/-- Window 1 is whole at every point: its block is the array. -/
theorem blk1 (c : Dev nD) (t : Fin cfg0.N) : iblk m c 1 t = V m c main_arg3 := by
  obtain ⟨e0, e1, e2, e3, e4, e5, e6, e7, e8, e9, e10, e11⟩ := idx_facts t
  funext y
  show V m c main_arg3 (((cfg0.win 1).blk t).view.emb y) = V m c main_arg3 y
  refine congrArg (V m c main_arg3) (funext fun a => Fin.ext ?_)
  match a with
  | ⟨0, _⟩ => show win0_1.index t (0 : Fin 2) * 64 + 1 * (y 0).val = (y 0).val; omega
  | ⟨1, _⟩ => show win0_1.index t (1 : Fin 2) * 3 + 1 * (y 1).val = (y 1).val; omega

/-- Window 2 is whole at every point: its block is the array. -/
theorem blk2 (c : Dev nD) (t : Fin cfg0.N) : iblk m c 2 t = V m c main_arg4 := by
  obtain ⟨e0, e1, e2, e3, e4, e5, e6, e7, e8, e9, e10, e11⟩ := idx_facts t
  funext y
  show V m c main_arg4 (((cfg0.win 2).blk t).view.emb y) = V m c main_arg4 y
  refine congrArg (V m c main_arg4) (funext fun a => Fin.ext ?_)
  match a with
  | ⟨0, _⟩ => show win0_2.index t (0 : Fin 2) * 1 + 1 * (y 0).val = (y 0).val; omega
  | ⟨1, _⟩ => show win0_2.index t (1 : Fin 2) * 3 + 1 * (y 1).val = (y 1).val; omega

/-- Window 3 is whole at every point: its block is the array. -/
theorem blk3 (c : Dev nD) (t : Fin cfg0.N) : iblk m c 3 t = V m c main_v21 := by
  obtain ⟨e0, e1, e2, e3, e4, e5, e6, e7, e8, e9, e10, e11⟩ := idx_facts t
  funext y
  show V m c main_v21 (((cfg0.win 3).blk t).view.emb y) = V m c main_v21 y
  refine congrArg (V m c main_v21) (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega

/-- Window 4 is whole at every point: its block is the array. -/
theorem blk4 (c : Dev nD) (t : Fin cfg0.N) : iblk m c 4 t = V m c main_v22 := by
  obtain ⟨e0, e1, e2, e3, e4, e5, e6, e7, e8, e9, e10, e11⟩ := idx_facts t
  funext y
  show V m c main_v22 (((cfg0.win 4).blk t).view.emb y) = V m c main_v22 y
  refine congrArg (V m c main_v22) (funext fun a => Fin.ext ?_)
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- Row `p` of the input tile at point `t` is row `20000·t + p` of the mean messages: the input tile moves with the output tile. -/
theorem blk0_row (c : Dev nD) (t : Fin cfg0.N) (j : ((cfg0.win 5).xblock (grid0.coords t)).Idx) (k : Fin 64) :
    iblk m c 0 t (ix2 ((cfg0.win 5).xinj (grid0.coords t) j 0) k) = V m c main_v20 (ix2 (((cfg0.win 5).blk t).view.emb j 0) k) := by
  obtain ⟨e0, e1, e2, e3, e4, e5, e6, e7, e8, e9, e10, e11⟩ := idx_facts t
  show V m c main_v20 (((cfg0.win 0).blk t).view.emb (ix2 ((cfg0.win 5).xinj (grid0.coords t) j 0) k)) = _
  refine congrArg (V m c main_v20) (funext fun a => Fin.ext ?_)
  match a with
  | ⟨0, _⟩ => show win0_0.index t (0 : Fin 2) * 20000 + 1 * (j 0).val = win0_5.index t (0 : Fin 2) * 20000 + 1 * (j 0).val; omega
  | ⟨1, _⟩ => show win0_0.index t (1 : Fin 2) * 64 + 1 * k.val = k.val; omega

/-- Reading an array through the output tile at point `t` reads it at the tile's place in the array. -/
theorem read_tile (t : Fin cfg0.N) (G : S100000x64.Idx → Elt F .f32) (j : ((cfg0.win 5).xblock (grid0.coords t)).Idx) :
    ((cfg0.win 5).blk t).view.read (Elt F) G j = G (((cfg0.win 5).blk t).view.emb j) := rfl

/-- The column of an element of the output tile is its column in the array. -/
theorem tile_col (t : Fin cfg0.N) (j : ((cfg0.win 5).xblock (grid0.coords t)).Idx) :
    (cfg0.win 5).xinj (grid0.coords t) j 1 = ((cfg0.win 5).blk t).view.emb j 1 := by
  obtain ⟨e0, e1, e2, e3, e4, e5, e6, e7, e8, e9, e10, e11⟩ := idx_facts t
  refine Fin.ext ?_
  show (j 1).val = win0_5.index t (1 : Fin 2) * 64 + 1 * (j 1).val
  omega

end Blocks

/-! ## The five tiles cover the array -/

/-- An index of the array is in point `t`'s tile iff each coordinate is in the tile's range on its axis. -/
theorem mem_blk (t : Fin cfg0.N) (i : S100000x64.Idx) :
    i ∈ ((cfg0.win 5).blk t).view.set ↔ ∀ a : Fin 2, win0_5.index t a * S20000x64.size a ≤ (i a).val ∧ (i a).val < win0_5.index t a * S20000x64.size a + S20000x64.size a := by
  show i ∈ ((View.whole main_v23).slice (win0_5.rect t)).set ↔ _
  rw [View.set_slice_whole, Rect.mem_set_unit]
  exact Iff.rfl

/-- Row `r` is in the tile of point `r / 20000`. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 5 := N_0
  have ht : (i 0).val / 20000 < cfg0.N := by rw [hN]; omega
  obtain ⟨e0, e1, e2, e3, e4, e5, e6, e7, e8, e9, e10, e11⟩ := idx_facts ⟨(i 0).val / 20000, ht⟩
  refine ⟨⟨(i 0).val / 20000, ht⟩, flush0_5 _, ?_⟩
  rw [mem_blk]
  intro a
  match a with
  | ⟨0, _⟩ =>
    show win0_5.index ⟨(i 0).val / 20000, ht⟩ (0 : Fin 2) * 20000 ≤ (i 0).val ∧ (i 0).val < win0_5.index ⟨(i 0).val / 20000, ht⟩ (0 : Fin 2) * 20000 + 20000
    rw [e11]
    show (i 0).val / 20000 * 20000 ≤ (i 0).val ∧ (i 0).val < (i 0).val / 20000 * 20000 + 20000
    omega
  | ⟨1, _⟩ =>
    show win0_5.index ⟨(i 0).val / 20000, ht⟩ (1 : Fin 2) * 64 ≤ (i 1).val ∧ (i 1).val < win0_5.index ⟨(i 0).val / 20000, ht⟩ (1 : Fin 2) * 64 + 64
    omega

/-! ## What each point writes back, and the whole array -/

section Exact

variable (m : (ℓ : Loc nD τ sig) → Buf (Elt Ideal) ℓ) (ρ : Dev nD → PrngReg)

/-- The result as one function of the call's operand arrays: every node's output row, the projection weight given
    already transposed (`wt`, indexed input, output) and the bias as one row. -/
def outK (h : S100000x64.Idx → EReal) (wg : S64x3.Idx → EReal) (bg : S1x3.Idx → EReal) (wt : S64x64.Idx → EReal) (b : S1x64.Idx → EReal) :
    S100000x64.Idx → EReal := fun i =>
  outRow (fun k => h (ix2 (i 0) k)) wg bg (fun k q => wt (ix2 k q)) (fun q => b (ix2 0 q)) (i 1)

theorem outK_def (h : S100000x64.Idx → EReal) (wg : S64x3.Idx → EReal) (bg : S1x3.Idx → EReal) (wt : S64x64.Idx → EReal) (b : S1x64.Idx → EReal)
    (i : S100000x64.Idx) :
    outK h wg bg wt b i = outRow (fun k => h (ix2 (i 0) k)) wg bg (fun k q => wt (ix2 k q)) (fun q => b (ix2 0 q)) (i 1) := rfl

/-- The output row is a function of its row argument and its column. -/
theorem outRow_congr {r r' : Fin 64 → EReal} (wg : (⟨2, ![64, 3]⟩ : Shape).Idx → EReal) (bg : (⟨2, ![1, 3]⟩ : Shape).Idx → EReal)
    (wt : Fin 64 → Fin 64 → EReal) (b : Fin 64 → EReal) {q q' : Fin 64} (hr : r = r') (hq : q = q') :
    outRow r wg bg wt b q = outRow r' wg bg wt b q' := by
  subst hr hq; rfl

theorem hz : (![0, 0] : Fin 2 → Nat) = fun _ => 0 := funext fun a => by fin_cases a <;> rfl

/-- The stored value at an element of the tile, from the loaded tiles. -/
theorem pay_at (x0 : Vec Ideal S20000x64 .f32) (x1 : Vec Ideal S64x3 .f32) (x2 : Vec Ideal S1x3 .f32)
    (x3 : Vec Ideal S64x64 .f32) (x4 : Vec Ideal S1x64 .f32) (j : S20000x64.Idx) :
    k0_pay1 x0 x1 x2 x3 x4 j
      = outRow (fun k => x0 (ix2 (j 0) k)) x1 x2 (fun k q => x3 (ix2 k q)) (fun q => x4 (ix2 0 q)) (j 1) := by
  obtain ⟨p, q, rfl⟩ : ∃ (p : Fin 20000) (q : Fin 64), j = ix2 p q := ⟨j 0, j 1, eq_ix2 j⟩
  exact Row.pay_row x0 x1 x2 x3 x4 p q

attribute [local irreducible] k0_pay1 outRow

/-- What point `t` writes back is tile `t` of `outK` of the operand arrays as the region finds them. -/
theorem flushed_eq (c : Dev nD) (t : Fin cfg0.N) :
    (dats m 0 c).flushed 5 t = ((cfg0.win 5).blk t).view.read (Elt Ideal)
      (outK (V m c main_v20) (V m c main_arg3) (V m c main_arg4) (V m c main_v21) (V m c main_v22)) := by
  rw [Value.flushed5]
  unfold out0_5
  rw [View.canon_unit_zero hz]
  simp only [View.ld_unit_zero (S := S20000x64) hz, View.ld_unit_zero (S := S64x3) hz, View.ld_unit_zero (S := S1x3) hz,
    View.ld_unit_zero (S := S64x64) hz, View.ld_unit_zero (S := S1x64) hz]
  funext j
  refine (pay_at (iblk m c 0 t) (iblk m c 1 t) (iblk m c 2 t) (iblk m c 3 t) (iblk m c 4 t) ((cfg0.win 5).xinj (grid0.coords t) j)).trans ?_
  rw [read_tile, outK_def, blk1, blk2, blk3, blk4]
  exact outRow_congr _ _ _ _ (funext fun k => blk0_row m c t j k) (tile_col t j)

/-- After the run the result array holds `outK` of the operand arrays as the region finds them. -/
theorem final (c : Dev nD) :
    (dats m 0 c).arrAt 5 cfg0.N = outK (V m c main_v20) (V m c main_arg3) (V m c main_arg4) (V m c main_v21) (V m c main_v22) :=
  (dats m 0 c).arrAt_eq_of_cover 5 _ (fun t _ => flushed_eq m c t) cover

/-- The run, read: the result at `outK` of the operand arrays, the arguments unchanged. -/
theorem run : θ_run defs (onTc (τ := τ) (main (F := Ideal))) ⟨m, fun _ => 0, ρ⟩ fun r => ∀ c : Dev nD,
      r.2.mem ((c : Thread nD τ).loc main_v23) = outK (V m c main_v20) (V m c main_arg3) (V m c main_arg4) (V m c main_v21) (V m c main_v22)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Exact

end Cert.KernelIdeal.Tiles

end
-- ==== Proof.KernelHost.lean ====
/-
  The kernel program's host stages before the call, as functions of the argument arrays, and what the call's operand
  arrays hold when the region is entered. The host gathers the source rows, appends a column of ones, adds the 65-wide
  rows into their destination rows in ONE scatter, and splits the result: the first 64 columns are the message sums,
  the last column the degree. The mean, zero where the degree is not positive, is operand 0 of the call; operand 3 is
  the projection weight transposed, operand 4 the bias as one row.
-/
import proofs.«429195_j13718125543735_3_alg».proof.Proof.Gen.KernelIdeal.Frame
import Idealize.ShloMosaic.Lib.StableHlo.Run

noncomputable section

namespace Cert.KernelIdeal.HostStages

open Cert.KernelIdeal Cert.KernelIdeal.Gen Idealize.ShloMosaic Idealize.ShloMosaic.TcCoe Idealize.SL.Sem Idealize.ShloMosaic.StableHlo

variable {F : FTy → Type} [FloatOps F]

/-- The gathered messages: row `src e` of the features for every edge `e` (a negative number counted from the end). -/
def gath (x0 : (⟨S100000x64, .f32⟩ : BufTy).Contents (Elt F)) (x1 : (⟨S1000000, .i32⟩ : BufTy).Contents (Elt F)) :
    (⟨S1000000x64, .f32⟩ : BufTy).Contents (Elt F) :=
  Host.gather gather_S100000x64_S1000000x1_S1000000x64_1_0_n_n_0_1_164 x0
    (broadcastInDim S1000000x1 ![0] bcast_S1000000_S1000000x1_0
      (select (cmpi .slt x1 (broadcastInDim S1000000 ![] bcast_S_S1000000 (constantI S_ 32 0#32)))
        (addi x1 (broadcastInDim S1000000 ![] bcast_S_S1000000 (constantI S_ 32 100000#32))) x1))

/-- The destination numbers as one column. -/
def seg (x2 : (⟨S1000000, .i32⟩ : BufTy).Contents (Elt F)) : (⟨S1000000x1, .i32⟩ : BufTy).Contents (Elt F) :=
  broadcastInDim S1000000x1 ![0] bcast_S1000000_S1000000x1_0 x2

/-- The messages with a column of ones appended. -/
def withOnes (x0 : (⟨S100000x64, .f32⟩ : BufTy).Contents (Elt F)) (x1 : (⟨S1000000, .i32⟩ : BufTy).Contents (Elt F)) :
    (⟨S1000000x65, .f32⟩ : BufTy).Contents (Elt F) :=
  concatenate S1000000x65 1 [⟨S1000000x64, gath x0 x1⟩, ⟨S1000000x1, broadcastInDim S1000000x1 ![] bcast_S_S1000000x1 (constant S_ .f32 0x3F800000#32)⟩]
    concatenates_S1000000x64_S1000000x1_S1000000x65_d1

/-- The one scatter: 65-wide rows added into their destination rows, from zero. -/
def agg (x0 : (⟨S100000x64, .f32⟩ : BufTy).Contents (Elt F)) (x1 x2 : (⟨S1000000, .i32⟩ : BufTy).Contents (Elt F)) :
    (⟨S100000x65, .f32⟩ : BufTy).Contents (Elt F) :=
  Host.scatterAdd scatter_S100000x65_S1000000x1_S1000000x65_1_0_0_1
    (broadcastInDim S100000x65 ![] bcast_S_S100000x65 (constant S_ .f32 0x00000000#32)) (seg x2) (withOnes x0 x1)

/-- Its first 64 columns and its last column. -/
def msumK (x0 : (⟨S100000x64, .f32⟩ : BufTy).Contents (Elt F)) (x1 x2 : (⟨S1000000, .i32⟩ : BufTy).Contents (Elt F)) :
    (⟨S100000x64, .f32⟩ : BufTy).Contents (Elt F) :=
  extractStridedSlice S100000x64 ![0, 0] (agg x0 x1 x2) slices_S100000x65_S100000x64_0_0
def degK (x0 : (⟨S100000x64, .f32⟩ : BufTy).Contents (Elt F)) (x1 x2 : (⟨S1000000, .i32⟩ : BufTy).Contents (Elt F)) :
    (⟨S100000x1, .f32⟩ : BufTy).Contents (Elt F) :=
  extractStridedSlice S100000x1 ![0, 64] (agg x0 x1 x2) slices_S100000x65_S100000x1_0_64

/-- The mean message, zero where the degree is not positive: operand 0 of the call. -/
def hK (x0 : (⟨S100000x64, .f32⟩ : BufTy).Contents (Elt F)) (x1 x2 : (⟨S1000000, .i32⟩ : BufTy).Contents (Elt F)) :
    (⟨S100000x64, .f32⟩ : BufTy).Contents (Elt F) :=
  select (broadcastInDim S100000x64 ![0, 1] bcast_S100000x1_S100000x64_0_1
      (cmpf (F := F) .ogt (degK x0 x1 x2) (broadcastInDim S100000x1 ![] bcast_S_S100000x1 (constant S_ .f32 0x00000000#32))))
    (Host.divf (msumK x0 x1 x2) (broadcastInDim S100000x64 ![0, 1] bcast_S100000x1_S100000x64_0_1
      (maximumf (degK x0 x1 x2) (broadcastInDim S100000x1 ![] bcast_S_S100000x1 (constant S_ .f32 0x3F800000#32)))))
    (broadcastInDim S100000x64 ![] bcast_S_S100000x64 (id (constant S_ .f32 0x00000000#32)))

variable (m : (ℓ : Loc nD τ sig) → Buf (Elt F) ℓ)

set_option maxRecDepth 8192 in
set_option maxHeartbeats 2000000 in
/-- The region finds the mean messages in operand 0's array. -/
theorem V_v20 (c : Dev nD) :
    V m c main_v20 = hK (m ((c : Thread nD τ).loc main_arg0)) (m ((c : Thread nD τ).loc main_arg1)) (m ((c : Thread nD τ).loc main_arg2)) := by
  dsimp only [V]
  simp only [hostOps0, hostOps0_1, hostOps0_2, List.flatten_cons, List.flatten_nil, List.append_nil, List.cons_append, List.nil_append]
  unfold hK msumK degK agg withOnes seg gath
  after_results_simp <;> (try simp only [TRef.ofBuf, TRef.toBuf, cast_eq]) <;> rfl

/-- The region finds the projection weight transposed in operand 3's array. -/
theorem V_v21 (c : Dev nD) :
    V m c main_v21 = transpose S64x64 [1, 0] (m ((c : Thread nD τ).loc main_arg5)) transposes_S64x64_S64x64_1_0 := by
  dsimp only [V]
  simp only [hostOps0, hostOps0_1, hostOps0_2, List.flatten_cons, List.flatten_nil, List.append_nil, List.cons_append, List.nil_append]
  after_results

/-- The region finds the bias as one row in operand 4's array. -/
theorem V_v22 (c : Dev nD) :
    V m c main_v22 = shapeCast S1x64 (m ((c : Thread nD τ).loc main_arg6)) shapeCasts_S64_S1x64 := by
  dsimp only [V]
  simp only [hostOps0, hostOps0_1, hostOps0_2, List.flatten_cons, List.flatten_nil, List.append_nil, List.cons_append, List.nil_append]
  after_results
  rfl

end Cert.KernelIdeal.HostStages

end
-- ==== Proof.KernelStage1.lean ====
/-
  The kernel program's mean aggregation is the specification's. Its one scatter adds 65-wide rows (64 message
  entries and a one); read at a row, column `c < 64` of the result is the sum of the messages' column `c` over the
  edges into that node, and column 64 the sum of the ones, the node's degree. So its two slices are `msum` and `deg`
  of the gathered messages, and the quotient it hands to the call is `hmean`.
-/
import proofs.«429195_j13718125543735_3_alg».proof.Proof.KernelHost
import proofs.«429195_j13718125543735_3_alg».proof.Proof.Spec
import Idealize.ShloMosaic.Lib.Pipeline.Value

noncomputable section

open scoped BigOperators

namespace Cert.KernelIdeal.HostStages

open Cert.KernelIdeal Cert.KernelIdeal.Gen Idealize.ShloMosaic Idealize.ShloMosaic.ValueIdx Cert.Spec Cert.LibScatterRows

/-! ## The layout operations read at an index, for any float values -/

section Layout

variable {F : FTy → Type} [FloatOps F]
variable (x0 : (⟨S100000x64, .f32⟩ : BufTy).Contents (Elt F)) (x1 x2 : (⟨S1000000, .i32⟩ : BufTy).Contents (Elt F))

/-- The first 64 columns of a widened row are the message. -/
theorem withOnes_left (e : Fin 1000000) (c : Fin 64) :
    withOnes x0 x1 (ix2 e (⟨c.val, by omega⟩ : Fin 65)) = gath x0 x1 (ix2 e c) := by
  rw [withOnes]
  exact concatenate_pair_apply_left (t := S1000000x65) (s₁ := S1000000x64) (s₂ := S1000000x1) 1 _ _
    concatenates_S1000000x64_S1000000x1_S1000000x65_d1 (ix2 e (⟨c.val, by omega⟩ : Fin 65)) rfl (ix2 e c)
    (fun b => by match b with | ⟨0, _⟩ => rfl | ⟨1, _⟩ => rfl)

/-- The last column of a widened row is the word `1.0`. -/
theorem withOnes_right (e : Fin 1000000) :
    withOnes x0 x1 (ix2 e (⟨64, by omega⟩ : Fin 65)) = FloatOps.ofBits .f32 0x3F800000#32 := by
  rw [withOnes]
  refine (concatenate_pair_apply_right (t := S1000000x65) (s₁ := S1000000x64) (s₂ := S1000000x1) 1 _ _
    concatenates_S1000000x64_S1000000x1_S1000000x65_d1 (ix2 e (⟨64, by omega⟩ : Fin 65)) rfl rfl (ix2 e (0 : Fin 1))
    (fun b hb => by match b with | ⟨0, _⟩ => rfl | ⟨1, _⟩ => exact absurd rfl hb) rfl).trans ?_
  rfl

/-- The message sums are the first 64 columns of the scatter's result. -/
theorem msumK_at (n : Fin 100000) (c : Fin 64) :
    msumK x0 x1 x2 (ix2 n c) = agg x0 x1 x2 (ix2 n (⟨c.val, by omega⟩ : Fin 65)) := by
  rw [msumK]
  exact extractStridedSlice_apply (s := S100000x65) (t := S100000x64) ![0, 0] _ slices_S100000x65_S100000x64_0_0 (ix2 n c) (ix2 n (⟨c.val, by omega⟩ : Fin 65))
    (fun a => by match a with | ⟨0, _⟩ => exact (Nat.zero_add _).symm | ⟨1, _⟩ => exact (Nat.zero_add _).symm)

/-- The degree is its last column. -/
theorem degK_at (n : Fin 100000) :
    degK x0 x1 x2 (ix2 n (0 : Fin 1)) = agg x0 x1 x2 (ix2 n (⟨64, by omega⟩ : Fin 65)) := by
  rw [degK]
  exact extractStridedSlice_apply (s := S100000x65) (t := S100000x1) ![0, 64] _ slices_S100000x65_S100000x1_0_64 (ix2 n (0 : Fin 1)) (ix2 n (⟨64, by omega⟩ : Fin 65))
    (fun a => by match a with | ⟨0, _⟩ => exact (Nat.zero_add _).symm | ⟨1, _⟩ => rfl)

/-- The call's operand 0 at a node and column: the quotient where the degree is positive, the word `0.0` elsewhere. -/
theorem hK_at (n : Fin 100000) (c : Fin 64) :
    hK x0 x1 x2 (ix2 n c)
      = Scalar.select (FloatOps.cmpf .ogt (degK x0 x1 x2 (ix2 n (0 : Fin 1))) (FloatOps.ofBits .f32 0x00000000#32))
          (FloatOps.hostDivf (msumK x0 x1 x2 (ix2 n c)) (FloatOps.maximumf (degK x0 x1 x2 (ix2 n (0 : Fin 1))) (FloatOps.ofBits .f32 0x3F800000#32)))
          (FloatOps.ofBits .f32 0x00000000#32) := by
  have hb : ∀ (v : (⟨S100000x1, .f32⟩ : BufTy).Contents (Elt F)),
      broadcastInDim (s := S100000x1) S100000x64 ![0, 1] bcast_S100000x1_S100000x64_0_1 v (ix2 n c) = v (ix2 n (0 : Fin 1)) := fun v =>
    broadcastInDim_apply (s := S100000x1) (t := S100000x64) ![0, 1] bcast_S100000x1_S100000x64_0_1 v (ix2 n c) (ix2 n (0 : Fin 1)) (fun a => by
      match a with
      | ⟨0, _⟩ => show n.val = if (100000 : Nat) = 1 then 0 else n.val; rw [if_neg (by decide)]
      | ⟨1, _⟩ => show 0 = if (1 : Nat) = 1 then 0 else c.val; rw [if_pos rfl])
  have hbi : ∀ (v : (⟨S100000x1, .i1⟩ : BufTy).Contents (Elt F)),
      broadcastInDim (s := S100000x1) S100000x64 ![0, 1] bcast_S100000x1_S100000x64_0_1 v (ix2 n c) = v (ix2 n (0 : Fin 1)) := fun v =>
    broadcastInDim_apply (s := S100000x1) (t := S100000x64) ![0, 1] bcast_S100000x1_S100000x64_0_1 v (ix2 n c) (ix2 n (0 : Fin 1)) (fun a => by
      match a with
      | ⟨0, _⟩ => show n.val = if (100000 : Nat) = 1 then 0 else n.val; rw [if_neg (by decide)]
      | ⟨1, _⟩ => show 0 = if (1 : Nat) = 1 then 0 else c.val; rw [if_pos rfl])
  rw [hK, select_apply, hbi]
  show Scalar.select (FloatOps.cmpf .ogt (degK x0 x1 x2 (ix2 n (0 : Fin 1))) _) (FloatOps.hostDivf (msumK x0 x1 x2 (ix2 n c)) (broadcastInDim (s := S100000x1) S100000x64 ![0, 1] bcast_S100000x1_S100000x64_0_1 _ (ix2 n c))) _ = _
  rw [hb]
  rfl

end Layout

/-! ## The sums, at the exact instance -/

section Exact

variable (x0 : (⟨S100000x64, .f32⟩ : BufTy).Contents (Elt Ideal)) (x1 x2 : (⟨S1000000, .i32⟩ : BufTy).Contents (Elt Ideal))

/-- The one scatter read at a row: the widened rows' column, summed over the edges into the node. -/
theorem agg_at (n : Fin 100000) (c' : Fin 65) :
    agg x0 x1 x2 (ix2 n c') = zero + ∑ e ∈ Finset.univ.filter (fun e : Fin 1000000 => lands 100000 (seg x2) e n.val), withOnes x0 x1 (ix2 e c') := by
  rw [agg, scatterAdd_eq, hostScatterAdd_row _ rfl rfl rfl rfl]
  rfl

/-- Its last column is the degree. -/
theorem degK_eq (n : Fin 100000) : degK x0 x1 x2 (ix2 n (0 : Fin 1)) = deg (seg x2) n := by
  rw [degK_at, agg_at, deg_def]
  refine congrArg (zero + ·) (Finset.sum_congr rfl fun e _ => ?_)
  rw [withOnes_right]; rfl

/-- Its first 64 columns are the message sums. -/
theorem msumK_eq (n : Fin 100000) (c : Fin 64) : msumK x0 x1 x2 (ix2 n c) = msum (gath x0 x1) (seg x2) n c := by
  rw [msumK_at, agg_at, msum_def]
  refine congrArg (zero + ·) (Finset.sum_congr rfl fun e _ => ?_)
  rw [withOnes_left]

/-- The call's operand 0 is the mean aggregation of the gathered messages. -/
theorem hK_eq : hK x0 x1 x2 = hmean (gath x0 x1) (seg x2) := by
  funext i
  obtain ⟨n, c, rfl⟩ : ∃ (n : Fin 100000) (c : Fin 64), i = ix2 n c := ⟨i 0, i 1, eq_ix2 i⟩
  rw [hK_at, degK_eq, msumK_eq, hmean_def]
  generalize deg (seg x2) n = D
  generalize msum (gath x0 x1) (seg x2) n c = M
  rfl

end Exact

end Cert.KernelIdeal.HostStages

end
-- ==== Proof.RefStage1.lean ====
/-
  The reference's first stage is the specification's: the value it passes to the gating stage is the mean aggregation
  `hmean` of its gathered messages (its two scatters read as sums over the edges into a node), and a node's clipped
  group score is `score` of that node's row.
-/
import proofs.«429195_j13718125543735_3_alg».proof.Proof.RefRead
import proofs.«429195_j13718125543735_3_alg».proof.Proof.Spec
import Idealize.ShloMosaic.PureOps.Ideal.Laws

noncomputable section

open scoped BigOperators

namespace Cert.ReferenceIdeal.RefSpec

open Cert.ReferenceIdeal Cert.ReferenceIdeal.Gen Cert.ReferenceIdeal.Read Idealize.ShloMosaic Idealize.ShloMosaic.ValueIdx Cert.Spec Cert.LibScatterRows

/-! ## Stage 1 -/

/-- Both scatters read the same destination numbers. -/
theorem seg_eq (x2 : (⟨S1000000, .i32⟩ : BufTy).Contents (Elt Ideal)) : val_main_v12 (F := Ideal) x2 = val_main_v8 (F := Ideal) x2 := rfl

/-- The reference's degree: the scatter of ones, at node `n`. -/
theorem ref_deg (x2 : (⟨S1000000, .i32⟩ : BufTy).Contents (Elt Ideal)) (n : Fin 100000) :
    val_main_v13 (F := Ideal) x2 (ix1 n) = deg (val_main_v8 (F := Ideal) x2) n := by
  unfold val_main_v13
  rw [scatterAdd_eq, hostScatterAdd_vec _ rfl rfl rfl rfl, seg_eq, val_main_v11_apply, val_main_cst_2_apply]
  refine congrArg (zero + ·) (Finset.sum_congr rfl fun e _ => ?_)
  rw [val_main_v10_apply, val_main_cst_1_apply]; rfl

/-- The reference's message sums: the scatter of the gathered rows, at node `n`, column `c`. -/
theorem ref_msum (x0 : (⟨S100000x64, .f32⟩ : BufTy).Contents (Elt Ideal)) (x1 x2 : (⟨S1000000, .i32⟩ : BufTy).Contents (Elt Ideal)) (n : Fin 100000) (c : Fin 64) :
    val_main_v9 (F := Ideal) x0 x1 x2 (ix2 n c) = msum (val_main_v6 (F := Ideal) x0 x1) (val_main_v8 (F := Ideal) x2) n c := by
  unfold val_main_v9
  rw [scatterAdd_eq, hostScatterAdd_row _ rfl rfl rfl rfl, val_main_v7_apply, val_main_cst_apply]
  rfl

/-- The reference's mean aggregation is `hmean` of its gathered messages along its destination numbers. -/
theorem ref_h (x0 : (⟨S100000x64, .f32⟩ : BufTy).Contents (Elt Ideal)) (x1 x2 : (⟨S1000000, .i32⟩ : BufTy).Contents (Elt Ideal)) :
    val_main_v22 (F := Ideal) x0 x1 x2 = hmean (val_main_v6 (F := Ideal) x0 x1) (val_main_v8 (F := Ideal) x2) := by
  funext i
  obtain ⟨n, c, rfl⟩ : ∃ (n : Fin 100000) (c : Fin 64), i = ix2 n c := ⟨i 0, i 1, eq_ix2 i⟩
  have i1 : idx_main_v14 (idx_main_call0_v1 (ix2 n c)) = ix1 n := funext fun a => Fin.ext (by match a with | ⟨0, _⟩ => rfl)
  have i2 : idx_main_v19 (idx_main_v20 (ix2 n c)) = ix1 n := funext fun a => Fin.ext (by match a with | ⟨0, _⟩ => rfl)
  show _ = Scalar.select (Ideal.cmp .ogt (deg (val_main_v8 (F := Ideal) x2) n) zero)
    (Ideal.div (msum (val_main_v6 (F := Ideal) x0 x1) (val_main_v8 (F := Ideal) x2) n c) (max (deg (val_main_v8 (F := Ideal) x2) n) one)) zero
  rw [val_main_v22_apply, val_main_call0_v1_apply, val_main_v16_apply, val_main_v14_apply, i1, ref_deg,
    val_main_v21_apply, ref_msum, val_main_v20_apply, val_main_v19_apply, i2, val_main_v18_apply, ref_deg,
    val_main_v15_apply, val_main_cst_3_apply, val_main_call0_v2_apply, val_main_call0_v0_apply, val_main_cst_5_apply,
    val_main_v17_apply, val_main_cst_4_apply]
  generalize deg (val_main_v8 (F := Ideal) x2) n = D
  generalize msum (val_main_v6 (F := Ideal) x0 x1) (val_main_v8 (F := Ideal) x2) n c = M
  rfl

/-! ## Stage 2 -/

/-- The reference's clipped score of node `n`, group `g`. -/
theorem ref_score (x0 : (⟨S100000x64, .f32⟩ : BufTy).Contents (Elt Ideal)) (x1 x2 : (⟨S1000000, .i32⟩ : BufTy).Contents (Elt Ideal))
    (x3 : (⟨S64x3, .f32⟩ : BufTy).Contents (Elt Ideal)) (x4 : (⟨S1x3, .f32⟩ : BufTy).Contents (Elt Ideal)) (n : Fin 100000) (g : Fin 3) :
    val_main_v26 (F := Ideal) x0 x1 x2 x3 x4 (ix2 n g) = score (fun k => val_main_v22 (F := Ideal) x0 x1 x2 (ix2 n k)) x3 x4 g := by
  have il : ∀ k : Fin 64, lidx_main_v23 (ix2 n g) k = ix2 n k := fun k => funext fun a => Fin.ext (by match a with | ⟨0, _⟩ => rfl | ⟨1, _⟩ => rfl)
  have ir : ∀ k : Fin 64, ridx_main_v23 (ix2 n g) k = ix2 k g := fun k => funext fun a => Fin.ext (by match a with | ⟨0, _⟩ => rfl | ⟨1, _⟩ => rfl)
  have ib : idx_main_v24 (ix2 n g) = ix2 0 g := funext fun a => Fin.ext (by match a with | ⟨0, _⟩ => rfl | ⟨1, _⟩ => rfl)
  rw [val_main_v26_apply, val_main_v25_apply, val_main_v23_apply, val_main_v24_apply, ib, val_main_call1_v0_apply, val_main_call1_cst_apply]
  generalize val_main_v22 (F := Ideal) x0 x1 x2 = h
  show max ((∑ k : Fin 64, h (lidx_main_v23 (ix2 n g) k) * x3 (ridx_main_v23 (ix2 n g) k)) + x4 (ix2 0 g)) zero = _
  unfold score
  refine congrArg (fun z => max (z + x4 (ix2 0 g)) zero) (Finset.sum_congr rfl fun k _ => ?_)
  rw [il, ir]

end Cert.ReferenceIdeal.RefSpec

end
-- ==== Proof.RefStage2.lean ====
/-
  The reference's second stage is the specification's: a node's largest score is `top` of its row, its gate the count
  `gate`, and the program's result `out` of the mean messages.
-/
import proofs.«429195_j13718125543735_3_alg».proof.Proof.RefStage1

noncomputable section

open scoped BigOperators

namespace Cert.ReferenceIdeal.RefSpec

open Cert.ReferenceIdeal Cert.ReferenceIdeal.Gen Cert.ReferenceIdeal.Read Idealize.ShloMosaic Idealize.ShloMosaic.ValueIdx Cert.Spec Cert.LibScatterRows

/-- The reference's row maximum of node `n`: the fold of `max` over its three clipped scores. -/
theorem ref_top (x0 : (⟨S100000x64, .f32⟩ : BufTy).Contents (Elt Ideal)) (x1 x2 : (⟨S1000000, .i32⟩ : BufTy).Contents (Elt Ideal))
    (x3 : (⟨S64x3, .f32⟩ : BufTy).Contents (Elt Ideal)) (x4 : (⟨S1x3, .f32⟩ : BufTy).Contents (Elt Ideal)) (n : Fin 100000) :
    val_main_v27 (F := Ideal) x0 x1 x2 x3 x4 (ix1 n) = top (fun k => val_main_v22 (F := Ideal) x0 x1 x2 (ix2 n k)) x3 x4 := by
  have hR : S100000x3.Reduces [1] S100000 := by decide
  rw [val_main_v27, Host.reduce_eq_fold_single (FloatOps.maximumf (F := Ideal) (φ := .f32)) (val_main_v26 (F := Ideal) x0 x1 x2 x3 x4) (val_main_cst_6 (F := Ideal)) reducesTo_S100000x3_S100000_d1 hR h_S_ (ix1 n),
    Function.comp_def]
  have e : (fun g : Fin (S100000x3.size 1) => val_main_v26 (F := Ideal) x0 x1 x2 x3 x4 (hR.lift (ix1 n) g)) = score (fun k => val_main_v22 (F := Ideal) x0 x1 x2 (ix2 n k)) x3 x4 :=
    funext fun g =>
      have ig : hR.lift (ix1 n) g = ix2 n (show Fin 3 from g) := funext fun a => Fin.ext (by match a with | ⟨0, _⟩ => rfl | ⟨1, _⟩ => rfl)
      (congrArg (val_main_v26 (F := Ideal) x0 x1 x2 x3 x4) ig).trans (ref_score x0 x1 x2 x3 x4 n g)
  rw [e, val_main_cst_6_apply, top_def]
  generalize score (fun k => val_main_v22 (F := Ideal) x0 x1 x2 (ix2 n k)) x3 x4 = sc
  exact fold_max_eq sc

/-- The reference's gate of node `n`: how many of its three scores equal the maximum. -/
theorem ref_gate (x0 : (⟨S100000x64, .f32⟩ : BufTy).Contents (Elt Ideal)) (x1 x2 : (⟨S1000000, .i32⟩ : BufTy).Contents (Elt Ideal))
    (x3 : (⟨S64x3, .f32⟩ : BufTy).Contents (Elt Ideal)) (x4 : (⟨S1x3, .f32⟩ : BufTy).Contents (Elt Ideal)) (n : Fin 100000) :
    val_main_v32 (F := Ideal) x0 x1 x2 x3 x4 (ix1 n) = gate (fun k => val_main_v22 (F := Ideal) x0 x1 x2 (ix2 n k)) x3 x4 := by
  rw [val_main_v32_apply, val_main_cst_7_apply, gate_def]
  refine (congrArg (· + _) zero_word).trans ((zero_add _).trans (Finset.sum_congr rfl fun g _ => ?_))
  have ig : idx_main_v32 (ix1 n) g = ix2 n g := funext fun a => Fin.ext (by match a with | ⟨0, _⟩ => rfl | ⟨1, _⟩ => rfl)
  have it : idx_main_v28 (idx_main_v29 (ix2 n g)) = ix1 n := funext fun a => Fin.ext (by match a with | ⟨0, _⟩ => rfl)
  rw [ig, val_main_v31_apply, val_main_v30_apply, ref_score, val_main_v29_apply, val_main_v28_apply, it, ref_top]
  generalize score (fun k => val_main_v22 (F := Ideal) x0 x1 x2 (ix2 n k)) x3 x4 g = s
  generalize top (fun k => val_main_v22 (F := Ideal) x0 x1 x2 (ix2 n k)) x3 x4 = tp
  rfl

/-- The reference's result is `out` of its mean messages. -/
theorem ref_out (x0 : (⟨S100000x64, .f32⟩ : BufTy).Contents (Elt Ideal)) (x1 x2 : (⟨S1000000, .i32⟩ : BufTy).Contents (Elt Ideal))
    (x3 : (⟨S64x3, .f32⟩ : BufTy).Contents (Elt Ideal)) (x4 : (⟨S1x3, .f32⟩ : BufTy).Contents (Elt Ideal))
    (x5 : (⟨S64x64, .f32⟩ : BufTy).Contents (Elt Ideal)) (x6 : (⟨S64, .f32⟩ : BufTy).Contents (Elt Ideal)) :
    val_main_v40 (F := Ideal) x0 x1 x2 x3 x4 x5 x6 = out (val_main_v22 (F := Ideal) x0 x1 x2) x3 x4 x5 x6 := by
  funext i
  obtain ⟨n, q, rfl⟩ : ∃ (n : Fin 100000) (q : Fin 64), i = ix2 n q := ⟨i 0, i 1, eq_ix2 i⟩
  have ib : idx_main_v38 (idx_main_v39 (ix2 n q)) = ix1 q := funext fun a => Fin.ext (by match a with | ⟨0, _⟩ => rfl)
  rw [val_main_v40_apply, val_main_v37_apply, val_main_v39_apply, val_main_v38_apply, ib, out_def, outRow_def]
  refine congrArg (· + x6 (ix1 q)) (Finset.sum_congr rfl fun k _ => ?_)
  have il : lidx_main_v37 (ix2 n q) k = ix2 n k := funext fun a => Fin.ext (by match a with | ⟨0, _⟩ => rfl | ⟨1, _⟩ => rfl)
  have ir : ridx_main_v37 (ix2 n q) k = ix2 k q := funext fun a => Fin.ext (by match a with | ⟨0, _⟩ => rfl | ⟨1, _⟩ => rfl)
  have iw : idx_main_v36 (ix2 k q) = ix2 q k := funext fun a => Fin.ext (by match a with | ⟨0, _⟩ => rfl | ⟨1, _⟩ => rfl)
  have ig : idx_main_v33 (idx_main_v34 (ix2 n k)) = ix1 n := funext fun a => Fin.ext (by match a with | ⟨0, _⟩ => rfl)
  rw [il, ir, val_main_v36_apply, iw, val_main_v35_apply, val_main_v34_apply, val_main_v33_apply, ig, ref_gate]
  rfl

end Cert.ReferenceIdeal.RefSpec

end
-- ==== Proof.Bridge.lean ====
/-
  Where the two programs meet. The kernel program's result array, read off its run, and the reference's result are
  the same function of the arguments: `out` of the mean aggregation `hmean` of the gathered messages. The two programs
  gather the same rows and read the same destination numbers; the kernel's call is handed the projection weight
  already transposed and the bias as one row, which read at an index are the weight and the bias.
-/
import proofs.«429195_j13718125543735_3_alg».proof.Proof.KernelTiles
import proofs.«429195_j13718125543735_3_alg».proof.Proof.KernelStage1
import proofs.«429195_j13718125543735_3_alg».proof.Proof.RefStage2

noncomputable section

open scoped BigOperators

namespace Cert.Bridge

open Cert.KernelIdeal Cert.KernelIdeal.Gen Idealize.ShloMosaic Idealize.ShloMosaic.TcCoe Idealize.SL.Sem Idealize.ShloMosaic.ValueIdx Cert.Spec

/-- Both programs gather the same rows … -/
theorem gath_eq {F : FTy → Type} [FloatOps F] (x0 : (⟨S100000x64, .f32⟩ : BufTy).Contents (Elt F)) (x1 : (⟨S1000000, .i32⟩ : BufTy).Contents (Elt F)) :
    Cert.ReferenceIdeal.Read.val_main_v6 (F := F) x0 x1 = HostStages.gath x0 x1 := rfl

/-- … and read the same destination numbers. -/
theorem seg_eq {F : FTy → Type} [FloatOps F] (x2 : (⟨S1000000, .i32⟩ : BufTy).Contents (Elt F)) :
    Cert.ReferenceIdeal.Read.val_main_v8 (F := F) x2 = HostStages.seg x2 := rfl

/-- The result both programs compute, from the kernel program's argument arrays. -/
abbrev result (m : (ℓ : Loc nD τ sig) → Buf (Elt Ideal) ℓ) (c : Dev nD) : S100000x64.Idx → EReal :=
  out (hmean (HostStages.gath (m ((c : Thread nD τ).loc main_arg0)) (m ((c : Thread nD τ).loc main_arg1))) (HostStages.seg (m ((c : Thread nD τ).loc main_arg2))))
    (m ((c : Thread nD τ).loc main_arg3)) (m ((c : Thread nD τ).loc main_arg4)) (m ((c : Thread nD τ).loc main_arg5)) (m ((c : Thread nD τ).loc main_arg6))

/-- With the weight transposed and the bias as one row, the tiles' function is `out`. -/
theorem outK_eq_out (h : S100000x64.Idx → EReal) (wg : S64x3.Idx → EReal) (bg : S1x3.Idx → EReal) (wl : S64x64.Idx → EReal) (bl : S64.Idx → EReal) :
    Tiles.outK h wg bg (transpose S64x64 [1, 0] wl transposes_S64x64_S64x64_1_0) (shapeCast S1x64 bl shapeCasts_S64_S1x64) = out h wg bg wl bl := by
  funext i
  obtain ⟨n, q, rfl⟩ : ∃ (n : Fin 100000) (q : Fin 64), i = ix2 n q := ⟨i 0, i 1, eq_ix2 i⟩
  rw [Tiles.outK_def, out_def]
  refine outRow_congr6 rfl rfl rfl (funext fun k => funext fun q' => ?_) (funext fun q' => ?_) rfl
  · exact transpose_apply [1, 0] wl transposes_S64x64_S64x64_1_0 (ix2 k q') (ix2 q' k) (fun b => match b with
      | ⟨0, _⟩ => rfl
      | ⟨1, _⟩ => rfl)
  · exact shapeCast_apply bl shapeCasts_S64_S1x64 (ix2 0 q') (ix1 q') (by
      rw [Shape.rowMajor_val_one, Shape.rowMajor_val_two]; simp)

/-- The kernel program's result array is `result`. -/
theorem kernel_value (m : (ℓ : Loc nD τ sig) → Buf (Elt Ideal) ℓ) (c : Dev nD) :
    Tiles.outK (V m c main_v20) (V m c main_arg3) (V m c main_arg4) (V m c main_v21) (V m c main_v22) = result m c := by
  rw [HostStages.V_v20, V_main_arg3, V_main_arg4, HostStages.V_v21, HostStages.V_v22, HostStages.hK_eq, outK_eq_out]

/-- The reference's result is the same function of the same arguments. -/
theorem ref_value (x0 : (⟨S100000x64, .f32⟩ : BufTy).Contents (Elt Ideal)) (x1 x2 : (⟨S1000000, .i32⟩ : BufTy).Contents (Elt Ideal))
    (x3 : (⟨S64x3, .f32⟩ : BufTy).Contents (Elt Ideal)) (x4 : (⟨S1x3, .f32⟩ : BufTy).Contents (Elt Ideal))
    (x5 : (⟨S64x64, .f32⟩ : BufTy).Contents (Elt Ideal)) (x6 : (⟨S64, .f32⟩ : BufTy).Contents (Elt Ideal)) :
    Cert.ReferenceIdeal.Read.val_main_v40 (F := Ideal) x0 x1 x2 x3 x4 x5 x6
      = out (hmean (HostStages.gath x0 x1) (HostStages.seg x2)) x3 x4 x5 x6 := by
  rw [Cert.ReferenceIdeal.RefSpec.ref_out, Cert.ReferenceIdeal.RefSpec.ref_h, gath_eq, seg_eq]

end Cert.Bridge

end
-- ==== Proof.lean ====
/-
  A graph layer: mean aggregation over incoming edges, a group gate, and a linear projection — the kernel program
  against its reference, element by element over the extended reals.

  Both programs gather the source node's 64 features for each of the million edges and add them into the edge's
  destination node; a node's degree is the number of edges into it, and the mean message is the sum divided by
  `max(degree, 1)`, zero for a node with no incoming edge. The reference does this with two scatter-adds, one of the
  gathered rows and one of a vector of ones. The kernel program appends a column of ones to the gathered rows and
  does ONE scatter-add of the 65-wide rows, then splits the result. Read at a node, either scatter is a sum over
  the edges into that node, column by column, so the first 64 columns of the wide result are the reference's message
  sums and the last column its degree: a regrouping of sums, with no appeal to finiteness (Proof/LibScatterRows.lean,
  Proof/KernelStage1.lean, Proof/RefStage1.lean).

  From the mean message `h` both compute, node by node, the three scores `max(h · W_gc + b_gc, 0)`, their maximum, the
  number of scores equal to it, the row `h` scaled by that count, and its image under the linear layer. The
  reference does it on whole arrays; the kernel in five tiles of 20000 rows, each tile's rows depending on the same
  rows of `h` alone (Proof/KernelRow.lean), so the tiles are the restrictions of one whole-array function and cover
  the array (Proof/KernelTiles.lean). The kernel's two matrix products into zero and the reference's are the same sums
  over the 64 features, the casts to a narrower float are the identity here, the row maximum is a fold of `max` from
  `-inf` on both sides, and a comparison bit widened and converted signed is the bit converted unsigned.
  Proof/Spec.lean states the common function; Proof/Bridge.lean joins the two sides.

  The frames of the two kernel programs are the generated frame certificates; the reference's frame is its run with
  the result dropped. The idealization rewrote nothing, so its conjunct is `True`.
-/
import proofs.«429195_j13718125543735_3_alg».proof.Defs
import proofs.«429195_j13718125543735_3_alg».proof.Proof.Gen.Kernel
import proofs.«429195_j13718125543735_3_alg».proof.Proof.Gen.Kernel.Skeleton
import proofs.«429195_j13718125543735_3_alg».proof.Proof.Gen.Kernel.Launch
import proofs.«429195_j13718125543735_3_alg».proof.Proof.Gen.Kernel.Points
import proofs.«429195_j13718125543735_3_alg».proof.Proof.Gen.Kernel.Frame
import proofs.«429195_j13718125543735_3_alg».proof.Proof.Gen.KernelIdeal
import proofs.«429195_j13718125543735_3_alg».proof.Proof.Gen.KernelIdeal.Skeleton
import proofs.«429195_j13718125543735_3_alg».proof.Proof.Gen.KernelIdeal.Launch
import proofs.«429195_j13718125543735_3_alg».proof.Proof.Gen.KernelIdeal.Points
import proofs.«429195_j13718125543735_3_alg».proof.Proof.Gen.KernelIdeal.Frame
import proofs.«429195_j13718125543735_3_alg».proof.Proof.Gen.ReferenceIdeal
import proofs.«429195_j13718125543735_3_alg».proof.Proof.Gen.KernelIdeal.Value
import proofs.«429195_j13718125543735_3_alg».proof.Proof.RefRead
import proofs.«429195_j13718125543735_3_alg».proof.Proof.Gen.Pre_finite_inputs
import proofs.«429195_j13718125543735_3_alg».proof.Proof.Bridge
import Idealize.ShloMosaic.Adequacy
import Idealize.ShloMosaic.Init

noncomputable section

namespace Cert.Proof

open Idealize.ShloMosaic Idealize.SL.Sem

/-- The kernel program as printed runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same result, `Bridge.result`: the kernel's
    tiles assemble to it, and the reference's stages compose to it. -/
theorem algebraic : Cert.algebraic_KernelIdeal_ReferenceIdeal := by
  intro m ρ m' ρ' _ hagree
  refine ⟨fun c => Cert.Bridge.result m c, ?_, ?_⟩
  · exact (θ_run Cert.KernelIdeal.defs _ _).mono (fun r h c => ⟨(h c).1.trans (Cert.Bridge.kernel_value m c), (h c).2⟩)
      (Cert.KernelIdeal.Tiles.run m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v40_eq, (hagree c).1, (hagree c).2.1, (hagree c).2.2.1, (hagree c).2.2.2.1,
      (hagree c).2.2.2.2.1, (hagree c).2.2.2.2.2.1, (hagree c).2.2.2.2.2.2]
    exact Cert.Bridge.ref_value _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
